-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x1024 : Shape := ⟨2, ![512, 1024]⟩
abbrev S1x1024 : Shape := ⟨2, ![1, 1024]⟩
abbrev S1024x512 : Shape := ⟨2, ![1024, 512]⟩
abbrev S1x512 : Shape := ⟨2, ![1, 512]⟩
abbrev S512x256 : Shape := ⟨2, ![512, 256]⟩
abbrev S1x256 : Shape := ⟨2, ![1, 256]⟩
abbrev S1024x256 : Shape := ⟨2, ![1024, 256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1x512 : S_.BroadcastsInDim S1x512 (![] : Fin 0 → Fin S1x512.rank)
  reducesTo_S1x512_S_d0_1 : S1x512.ReducesTo [0, 1] S_
  bcast_S_S512x256 : S_.BroadcastsInDim S512x256 (![] : Fin 0 → Fin S512x256.rank)
  reducesTo_S512x256_S_d0_1 : S512x256.ReducesTo [0, 1] S_
  bcast_S_S1x256 : S_.BroadcastsInDim S1x256 (![] : Fin 0 → Fin S1x256.rank)
  reducesTo_S1x256_S_d0_1 : S1x256.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part3 {F : FTy → Type} [FloatOps F] (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  main_v53

def fn_part2 {F : FTy → Type} [FloatOps F] (main_arg7 : FVec F S512x1024 .f32) (main_arg8 : FVec F S1x1024 .f32) (main_arg9 : FVec F S1024x256 .f32) (main_arg10 : FVec F S1x256 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S1024x256 .f32 := Host.absf main_arg9
  let main_cst_16 : FVec F S_ .f32 := constant S_ .f32 0x7F800000#32
  let main_v45 : FVec F S1024x256 .f32 := broadcastInDim S1024x256 ![] bcast_S_S1024x256 main_cst_16
  let main_v46 : IVec S1024x256 1 := cmpf .olt main_v44 main_v45
  let main_c_17 : IVec S_ 1 := constantI S_ 1 1#1
  let main_v47 : IVec S_ 1 := (fun x v => Host.reduce IntOp.andi x v reducesTo_S1024x256_S_d0_1 h_S_) main_v46 main_c_17
  let main_v48 : IVec S_ 1 := andi main_v43 main_v47
  let main_v49 : FVec F S1x256 .f32 := Host.absf main_arg10
  let main_cst_18 : FVec F S_ .f32 := constant S_ .f32 0x7F800000#32
  let main_v50 : FVec F S1x256 .f32 := broadcastInDim S1x256 ![] bcast_S_S1x256 main_cst_18
  fn_part3 (F := F) main_v48 main_v49 main_v50

def fn_part1 {F : FTy → Type} [FloatOps F] (main_arg4 : FVec F S1x512 .f32) (main_arg5 : FVec F S512x256 .f32) (main_arg6 : FVec F S1x256 .f32) (main_arg7 : FVec F S512x1024 .f32) (main_arg8 : FVec F S1x1024 .f32) (main_arg9 : FVec F S1024x256 .f32) (main_arg10 : FVec F S1x256 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S512x1024 .f32) (main_arg2 : FVec F S1x1024 .f32) (main_arg3 : FVec F S1024x512 .f32) (main_arg4 : FVec F S1x512 .f32) (main_arg5 : FVec F S512x256 .f32) (main_arg6 : FVec F S1x256 .f32) (main_arg7 : FVec F S512x1024 .f32) (main_arg8 : FVec F S1x1024 .f32) (main_arg9 : FVec F S1024x256 .f32) (main_arg10 : FVec F S1x256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S512x1024 : Shape := ⟨2, ![512, 1024]⟩
abbrev S1x1024 : Shape := ⟨2, ![1, 1024]⟩
abbrev S1024x512 : Shape := ⟨2, ![1024, 512]⟩
abbrev S1x512 : Shape := ⟨2, ![1, 512]⟩
abbrev S512x256 : Shape := ⟨2, ![512, 256]⟩
abbrev S1x256 : Shape := ⟨2, ![1, 256]⟩
abbrev S1024x256 : Shape := ⟨2, ![1024, 256]⟩
abbrev S16384x256 : Shape := ⟨2, ![16384, 256]⟩
abbrev S512x512 : Shape := ⟨2, ![512, 512]⟩

abbrev nBuf : Space → Nat
  | .hbm => 18
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S1x1024, .f32⟩
  | .hbm, ⟨3, _⟩ => ⟨S1024x512, .f32⟩
  | .hbm, ⟨4, _⟩ => ⟨S1x512, .f32⟩
  | .hbm, ⟨5, _⟩ => ⟨S512x256, .f32⟩
  | .hbm, ⟨6, _⟩ => ⟨S1x256, .f32⟩
  | .hbm, ⟨7, _⟩ => ⟨S512x1024, .f32⟩
  | .hbm, ⟨8, _⟩ => ⟨S1x1024, .f32⟩
  | .hbm, ⟨9, _⟩ => ⟨S1024x256, .f32⟩
  | .hbm, ⟨10, _⟩ => ⟨S1x256, .f32⟩
  | .hbm, ⟨11, _⟩ => ⟨S512x1024, .bf16⟩
  | .hbm, ⟨12, _⟩ => ⟨S512x1024, .bf16⟩
  | .hbm, ⟨13, _⟩ => ⟨S1024x512, .bf16⟩
  | .hbm, ⟨14, _⟩ => ⟨S1024x256, .bf16⟩
  | .hbm, ⟨15, _⟩ => ⟨S512x256, .bf16⟩
  | .hbm, ⟨16, _⟩ => ⟨S16384x256, .f32⟩
  | .hbm, ⟨17, _⟩ => ⟨S16384x256, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S1x1024, .f32⟩
  | .local _ .vmem, ⟨4, _⟩ => ⟨S512x1024, .bf16⟩
  | .local _ .vmem, ⟨5, _⟩ => ⟨S1x1024, .f32⟩
  | .local _ .vmem, ⟨6, _⟩ => ⟨S1024x512, .bf16⟩
  | .local _ .vmem, ⟨7, _⟩ => ⟨S1x512, .f32⟩
  | .local _ .vmem, ⟨8, _⟩ => ⟨S1024x256, .bf16⟩
  | .local _ .vmem, ⟨9, _⟩ => ⟨S1x256, .f32⟩
  | .local _ .vmem, ⟨10, _⟩ => ⟨S512x256, .bf16⟩
  | .local _ .vmem, ⟨11, _⟩ => ⟨S1x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0_0 : Ref sig .tc := ⟨.hbm, 16, rfl⟩
abbrev main_v0_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  broadcasts_S1x512_S512x512 : S1x512.Broadcasts S512x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  dot_S512x1024_S1024x256_S512x256_1_0_0_1_n_n_wf : DotDims.WF S512x1024 S1024x256 S512x256 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S1024x256.size a
  hwx0_7 : ∀ i : grid0.Coords, EltTy.bits .bf16 = 32 ∨ (Rect.block (s := S1024x256) S1024x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S512x256.size a
  hwx0_9 : ∀ i : grid0.Coords, EltTy.bits .bf16 = 32 ∨ (Rect.block (s := S512x256) S512x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S16384x256.size a
  hwx0_11 : ∀ i : grid0.Coords, EltTy.bits .f32 = 32 ∨ (Rect.block (s := S16384x256) S512x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S16384x256.size a
  hwx0_12 : ∀ i : grid0.Coords, EltTy.bits .f32 = 32 ∨ (Rect.block (s := S16384x256) S512x256.size (cc0_transform_12 i) (hinb0_12 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S1024x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v4) S512x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S512x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S512x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x1024 : Shape := ⟨2, ![512, 1024]⟩
abbrev S1x1024 : Shape := ⟨2, ![1, 1024]⟩
abbrev S1024x512 : Shape := ⟨2, ![1024, 512]⟩
abbrev S1x512 : Shape := ⟨2, ![1, 512]⟩
abbrev S512x256 : Shape := ⟨2, ![512, 256]⟩
abbrev S1x256 : Shape := ⟨2, ![1, 256]⟩
abbrev S1024x256 : Shape := ⟨2, ![1024, 256]⟩
abbrev S512x2048 : Shape := ⟨2, ![512, 2048]⟩
abbrev S1x2048 : Shape := ⟨2, ![1, 2048]⟩
abbrev S_ : Shape := ⟨0, ![]⟩
abbrev S2048x768 : Shape := ⟨2, ![2048, 768]⟩
abbrev S1 : Shape := ⟨1, ![1]⟩
abbrev S2 : Shape := ⟨1, ![2]⟩
abbrev S1x768 : Shape := ⟨2, ![1, 768]⟩
abbrev S768x512 : Shape := ⟨2, ![768, 512]⟩
abbrev S256x256 : Shape := ⟨2, ![256, 256]⟩
abbrev S512x512 : Shape := ⟨2, ![512, 512]⟩
abbrev S512x768 : Shape := ⟨2, ![512, 768]⟩
abbrev S16384x256 : Shape := ⟨2, ![16384, 256]⟩

abbrev nBuf : Space → Nat
  | .hbm => 55
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S1x1024, .f32⟩
  | .hbm, ⟨3, _⟩ => ⟨S1024x512, .f32⟩
  | .hbm, ⟨4, _⟩ => ⟨S1x512, .f32⟩
  | .hbm, ⟨5, _⟩ => ⟨S512x256, .f32⟩
  | .hbm, ⟨6, _⟩ => ⟨S1x256, .f32⟩
  | .hbm, ⟨7, _⟩ => ⟨S512x1024, .f32⟩
  | .hbm, ⟨8, _⟩ => ⟨S1x1024, .f32⟩
  | .hbm, ⟨9, _⟩ => ⟨S1024x256, .f32⟩
  | .hbm, ⟨10, _⟩ => ⟨S1x256, .f32⟩
  | .hbm, ⟨11, _⟩ => ⟨S512x2048, .f32⟩
  | .hbm, ⟨12, _⟩ => ⟨S1x2048, .f32⟩
  | .hbm, ⟨13, _⟩ => ⟨S_, .f32⟩
  | .hbm, ⟨14, _⟩ => ⟨S2048x768, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S2048x768, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S2048x768, .f32⟩
  | .hbm, ⟨27, _⟩ => ⟨S1x768, .f32⟩
  | .hbm, ⟨28, _⟩ => ⟨S_, .f32⟩
  | .hbm, ⟨29, _⟩ => ⟨S768x512, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S768x512, .f32⟩
  | .hbm, ⟨36, _⟩ => ⟨S256x256, .i32⟩
  | .hbm, ⟨37, _⟩ => ⟨S256x256, .i32⟩
  | .hbm, ⟨38, _⟩ => ⟨S_, .i32⟩
  | .hbm, ⟨39, _⟩ => ⟨S256x256, .i32⟩
  | .hbm, ⟨40, _⟩ => ⟨S256x256, .i32⟩
  | .hbm, ⟨41, _⟩ => ⟨S256x256, .i1⟩
  | .hbm, ⟨42, _⟩ => ⟨S256x256, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S768x512, .f32⟩
  | .hbm, ⟨49, _⟩ => ⟨S_, .f32⟩
  | .hbm, ⟨50, _⟩ => ⟨S1x256, .f32⟩
  | .hbm, ⟨51, _⟩ => ⟨S1x512, .f32⟩
  | .hbm, ⟨52, _⟩ => ⟨S16384x512, .f32⟩
  | .hbm, ⟨53, _⟩ => ⟨S16384x256, .f32⟩
  | .hbm, ⟨54, _⟩ => ⟨S16384x256, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S1x2048, .f32⟩
  | .local _ .vmem, ⟨4, _⟩ => ⟨S2048x768, .f32⟩
  | .local _ .vmem, ⟨5, _⟩ => ⟨S1x768, .f32⟩
  | .local _ .vmem, ⟨6, _⟩ => ⟨S768x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_c_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_7 : Ref sig .tc := ⟨.hbm, 43, rfl⟩
abbrev main_v23 : Ref sig .tc := ⟨.hbm, 44, rfl⟩
abbrev main_c_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x1024_S512x1024_S512x2048_d1 : Shape.Concatenates [S512x1024, S512x1024] S512x2048 1
  concatenates_S1x1024_S1x1024_S1x2048_d1 : Shape.Concatenates [S1x1024, S1x1024] S1x2048 1
  bcast_S_S2048x768 : S_.BroadcastsInDim S2048x768 (![] : Fin 0 → Fin S2048x768.rank)
  bcast_S_S1 : S_.BroadcastsInDim S1 (![] : Fin 0 → Fin S1.rank)
  concatenates_S1_S1_S2_d0 : Shape.Concatenates [S1, S1] S2 0
  concatenates_S1x512_S1x256_S1x768_d1 : Shape.Concatenates [S1x512, S1x256] S1x768 1
  bcast_S_S768x512 : S_.BroadcastsInDim S768x512 (![] : Fin 0 → Fin S768x512.rank)
  bcast_S_S256x256 : S_.BroadcastsInDim S256x256 (![] : Fin 0 → Fin S256x256.rank)
  bcast_S_S1x256 : S_.BroadcastsInDim S1x256 (![] : Fin 0 → Fin S1x256.rank)
  concatenates_S1x256_S1x256_S1x512_d1 : Shape.Concatenates [S1x256, S1x256] S1x512 1
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  iota_S512x2048_d1_w32 : S512x2048.Iotas .tc 32 [1]
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  iota_S512x768_d1_w32 : S512x768.Iotas .tc 32 [1]
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  slices_S16384x512_S16384x256_0_0 : S16384x512.Slices ![0, 0] S16384x256
  slices_S16384x512_S16384x256_0_256 : S16384x512.Slices ![0, 256] S16384x256
  scatter_S2048x768_S2_S1024x512_01_n_01_0_wf : ScatterDims.WF S2048x768 S2 S1024x512 [0, 1] [] [0, 1] 0
  scatter_S2048x768_S2_S1024x256_01_n_01_0_wf : ScatterDims.WF S2048x768 S2 S1024x256 [0, 1] [] [0, 1] 0
  scatter_S768x512_S2_S512x256_01_n_01_0_wf : ScatterDims.WF S768x512 S2 S512x256 [0, 1] [] [0, 1] 0
  scatter_S768x512_S2_S256x256_01_n_01_0_wf : ScatterDims.WF S768x512 S2 S256x256 [0, 1] [] [0, 1] 0
  dot_S512x512_S512x2048_S512x2048_1_0_0_1_n_n_wf : DotDims.WF S512x512 S512x2048 S512x2048 [1] [0] [0] [1] [] []
  dot_S512x2048_S2048x768_S512x768_1_0_0_1_n_n_wf : DotDims.WF S512x2048 S2048x768 S512x768 [1] [0] [0] [1] [] []
  dot_S512x768_S768x512_S512x512_1_0_0_1_n_n_wf : DotDims.WF S512x768 S768x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S2048x768.size a
  hwx0_3 : ∀ i : grid0.Coords, EltTy.bits .f32 = 32 ∨ (Rect.block (s := S2048x768) S2048x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x512.size a ≤ S768x512.size a
  hwx0_5 : ∀ i : grid0.Coords, EltTy.bits .f32 = 32 ∨ (Rect.block (s := S768x512) S768x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S16384x512.size a
  hwx0_7 : ∀ i : grid0.Coords, EltTy.bits .f32 = 32 ∨ (Rect.block (s := S16384x512) S512x512.size (cc0_transform_7 i) (hinb0_7 i)).WholeWords (EltTy.packing .f32)

variable [Facts₀]

def scatter_S2048x768_S2_S1024x512_01_n_01_0 : ScatterDims S2048x768 S2 S1024x512 where
  updateWindowDims := [0, 1]
  insertedWindowDims := []
  scatterDimsToOperandDims := [0, 1]
  indexVectorDim := 0
  wf := scatter_S2048x768_S2_S1024x512_01_n_01_0_wf
def scatter_S2048x768_S2_S1024x256_01_n_01_0 : ScatterDims S2048x768 S2 S1024x256 where
  updateWindowDims := [0, 1]
  insertedWindowDims := []
  scatterDimsToOperandDims := [0, 1]
  indexVectorDim := 0
  wf := scatter_S2048x768_S2_S1024x256_01_n_01_0_wf
def scatter_S768x512_S2_S512x256_01_n_01_0 : ScatterDims S768x512 S2 S512x256 where
  updateWindowDims := [0, 1]
  insertedWindowDims := []
  scatterDimsToOperandDims := [0, 1]
  indexVectorDim := 0
  wf := scatter_S768x512_S2_S512x256_01_n_01_0_wf
def scatter_S768x512_S2_S256x256_01_n_01_0 : ScatterDims S768x512 S2 S256x256 where
  updateWindowDims := [0, 1]
  insertedWindowDims := []
  scatterDimsToOperandDims := [0, 1]
  indexVectorDim := 0
  wf := scatter_S768x512_S2_S256x256_01_n_01_0_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x768_S512x768_1_0_0_1_n_n : DotDims S512x2048 S2048x768 S512x768 where
  lhsContracting := [1]
  rhsContracting := [0]
  lhsNonContracting := [0]
  rhsNonContracting := [1]
  lhsBatch := []
  rhsBatch := []
  wf := dot_S512x2048_S2048x768_S512x768_1_0_0_1_n_n_wf
def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S768x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.Spec.lean ====
/-
  The two networks, one row at a time, on the extended reals.

  Every entry of either result depends on ONE row of the input matrix. For a row `xr` (512 entries):
    h   l = relu (Σ p, xr p · w1m (p, l) + b1m (0, l))          (1024 entries)
    t   l = softplus (Σ p, xr p · w1t (p, l) + b1t (0, l))      (1024 entries)
    h1  k = relu (Σ l, h l · w2m (l, k) + b2m (0, k))           (512 entries)
    mu  j = Σ k, h1 k · w3m (k, j) + b3m (0, j)                 (256 entries)
    tau j = Σ l, t l · w2t (l, j) + b2t (0, j)                  (256 entries)
  with relu z = max z 0 and softplus z = z when z > 20, else log (1 + exp (min z 20)). The two whole results are
  these rows stacked: entry (r, j) is `mu` (or `tau`) of row r of the input at j.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `a` rows and `b` columns. -/
abbrev Mat (a b : Nat) : Type := (⟨2, ![a, b]⟩ : Shape).Idx → EReal

/-- The rectifier: the larger of the value and the number whose word is all zeros. -/
def relu (z : EReal) : EReal := max z (Scalar.ofBits (F := Ideal) .f32 0x00000000#32)

/-- The softened rectifier with its linear branch above twenty. -/
def softplus (z : EReal) : EReal :=
  Scalar.select (FloatOps.cmpf (F := Ideal) (φ := .f32) .ogt z (Scalar.ofBits (F := Ideal) .f32 0x41A00000#32)) z
    (FloatOps.log1p (F := Ideal) (φ := .f32) (FloatOps.exp (F := Ideal) (φ := .f32) (min z (Scalar.ofBits (F := Ideal) .f32 0x41A00000#32))))

/-- One affine layer applied to a row: entry `j` is the row times column `j` of the weights, plus the bias. -/
def affine {a b : Nat} (w : Mat a b) (bias : Mat 1 b) (v : Fin a → EReal) (j : Fin b) : EReal :=
  (∑ k : Fin a, v k * w (ix2 k j)) + bias (ix2 0 j)

section Net
variable (w1m : Mat 512 1024) (b1m : Mat 1 1024) (w2m : Mat 1024 512) (b2m : Mat 1 512) (w3m : Mat 512 256) (b3m : Mat 1 256)
  (w1t : Mat 512 1024) (b1t : Mat 1 1024) (w2t : Mat 1024 256) (b2t : Mat 1 256)

/-- First hidden layer of the first branch. -/
def hRow (xr : Fin 512 → EReal) (l : Fin 1024) : EReal := relu (affine w1m b1m xr l)
/-- Hidden layer of the second branch. -/
def tRow (xr : Fin 512 → EReal) (l : Fin 1024) : EReal := softplus (affine w1t b1t xr l)
/-- Second hidden layer of the first branch. -/
def h1Row (xr : Fin 512 → EReal) (k : Fin 512) : EReal := relu (affine w2m b2m (hRow w1m b1m xr) k)
/-- The first branch's output row. -/
def muRow (xr : Fin 512 → EReal) (j : Fin 256) : EReal := affine w3m b3m (h1Row w1m b1m w2m b2m xr) j
/-- The second branch's output row. -/
def tauRow (xr : Fin 512 → EReal) (j : Fin 256) : EReal := affine w2t b2t (tRow w1t b1t xr) j

/-- The first result: row `r` is `muRow` of row `r` of the input. -/
def Gmu {R : Nat} (x : Mat R 512) : Mat R 256 := fun i => muRow w1m b1m w2m b2m w3m b3m (fun p => x (ix2 (i 0) p)) (i 1)
/-- The second result: row `r` is `tauRow` of row `r` of the input. -/
def Gtau {R : Nat} (x : Mat R 512) : Mat R 256 := fun i => tauRow w1t b1t w2t b2t (fun p => x (ix2 (i 0) p)) (i 1)

end Net

end Cert.Spec

end
-- ==== Proof.LibPlainDot.lean ====
/-
  A PLAIN MATRIX PRODUCT READ AT AN INDEX (general lemmas; they mention no program).

  Take dimension numbers of a product [M, K] × [K, N] → [M, N] that contract the left operand's axis 1 with the
  right operand's axis 0, keep the left axis 0 and the right axis 1, and have no batch axes. The contraction index
  set then has one axis of extent K, so it is Fin K; the left operand's index at result index (i, j) and contraction
  position k is (i, k) and the right operand's is (k, j). Hence on the extended reals both the accumulate-into-zero
  product of the vector unit and the host's dot product are, at (i, j), the finite sum over k of l (i, k) · r (k, j).
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of a plain product: contract left axis 1 with right axis 0, keep left axis 0
    and right axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

/-- The host's dot product, at an index. -/
theorem dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_eq h l r j)

end Cert.Lib.PlainDot

end
-- ==== Proof.KernelPayload.lean ====
/-
  What the body of the two-branch kernel stores, entry by entry, on the extended reals.

  The body loads a block of 512 input rows and the whole weights and biases, and stores two blocks of 512 rows. Entry
  (r, j) of the first stored block is the first branch's output row of input row r at j; entry (r, j) of the second
  is the second branch's. Each matrix product into a zero accumulator is, entry by entry, the finite sum of
  products; a bias row broadcast down the block adds the bias entry of the column; the changes of float format are
  the identity on the extended reals; everything else acts entry by entry.
-/
import proofs.«108907_g2000702497057735_pallasbulk_324_2_alg».proof.Proof.Gen.KernelIdeal.Skeleton
import proofs.«108907_g2000702497057735_pallasbulk_324_2_alg».proof.Proof.Spec
import proofs.«108907_g2000702497057735_pallasbulk_324_2_alg».proof.Proof.LibPlainDot
import Idealize.ShloMosaic.Lib.Pipeline.Value
import Idealize.ShloMosaic.Lib.ValueLayout

noncomputable section

open scoped BigOperators

namespace Cert.KernelIdeal.Payload

open Idealize.ShloMosaic Idealize.ShloMosaic.ValueIdx Cert.KernelIdeal Cert.KernelIdeal.Gen Cert.Spec Cert.Lib.PlainDot

/-! ## The four products are plain products -/

/-- The product [512, 512] × [512, 1024] contracts the left columns with the right rows. -/
theorem plain_x_w1 : Plain dot_S512x512_S512x1024_S512x1024_1_0_0_1_n_n := ⟨rfl, rfl, rfl, rfl, rfl, rfl⟩
/-- The product [512, 1024] × [1024, 512] contracts the left columns with the right rows. -/
theorem plain_h_w2 : Plain dot_S512x1024_S1024x512_S512x512_1_0_0_1_n_n := ⟨rfl, rfl, rfl, rfl, rfl, rfl⟩
/-- The product [512, 1024] × [1024, 256] contracts the left columns with the right rows. -/
theorem plain_t_w2 : Plain dot_S512x1024_S1024x256_S512x256_1_0_0_1_n_n := ⟨rfl, rfl, rfl, rfl, rfl, rfl⟩
/-- The product [512, 512] × [512, 256] contracts the left columns with the right rows. -/
theorem plain_h1_w3 : Plain dot_S512x512_S512x256_S512x256_1_0_0_1_n_n := ⟨rfl, rfl, rfl, rfl, rfl, rfl⟩

/-! ## One layer, read at an entry -/

section Layer
variable {M K N : Nat} {d : DotDims (⟨2, ![M, K]⟩ : Shape) (⟨2, ![K, N]⟩ : Shape) (⟨2, ![M, N]⟩ : Shape)}

/-- A product into the zero accumulator plus a bias row broadcast down the block is, at entry (r, j), the affine
    layer applied to row r of the left operand, at j: the product's entry is the sum over the contracted position
    of the products, and the broadcast row's entry is the bias at column j. -/
theorem affine_apply (hd : Plain d) {φ₁ φ₂ : FTy} (a : FVec Ideal (⟨2, ![M, K]⟩ : Shape) φ₁) (w : FVec Ideal (⟨2, ![K, N]⟩ : Shape) φ₂)
    (b : FVec Ideal (⟨2, ![1, N]⟩ : Shape) .f32) (hb : (⟨2, ![1, N]⟩ : Shape).Broadcasts ⟨2, ![M, N]⟩) (r : Fin M) (j : Fin N) :
    addf (matmul d none a w (constant (F := Ideal) (⟨2, ![M, N]⟩ : Shape) .f32 0x00000000#32))
        (broadcastTo (⟨2, ![M, N]⟩ : Shape) b hb) (ix2 r j)
      = affine w b (fun p => a (ix2 r p)) j := by
  rw [addf_apply, broadcastTo_1b_ab_apply]
  exact congrArg (· + b (ix2 0 j)) (matmul_zero_apply hd none a w (ix2 r j))

/-- The same followed by the entrywise maximum with the number whose word is all zeros: the rectifier of the affine
    layer. -/
theorem relu_affine_apply (hd : Plain d) {φ₁ φ₂ : FTy} (a : FVec Ideal (⟨2, ![M, K]⟩ : Shape) φ₁) (w : FVec Ideal (⟨2, ![K, N]⟩ : Shape) φ₂)
    (b : FVec Ideal (⟨2, ![1, N]⟩ : Shape) .f32) (hb : (⟨2, ![1, N]⟩ : Shape).Broadcasts ⟨2, ![M, N]⟩) (r : Fin M) (j : Fin N) :
    maximumf (addf (matmul d none a w (constant (F := Ideal) (⟨2, ![M, N]⟩ : Shape) .f32 0x00000000#32))
        (broadcastTo (⟨2, ![M, N]⟩ : Shape) b hb))
        (broadcast (⟨2, ![M, N]⟩ : Shape) (Scalar.ofBits (F := Ideal) .f32 0x00000000#32)) (ix2 r j)
      = relu (affine w b (fun p => a (ix2 r p)) j) := by
  rw [maximumf_apply, affine_apply hd]
  rfl

/-- The softened rectifier, assembled entrywise from a comparison with twenty, a minimum with twenty, the exponential,
    log (1 + ·) and a select, reads at every index the scalar softened rectifier of the entry. -/
theorem softplus_apply {s : Shape} (z : FVec Ideal s .f32) (i : s.Idx) :
    select (cmpf .ogt z (broadcast s (Scalar.ofBits (F := Ideal) .f32 0x41A00000#32))) z
        (log1p (exp (minimumf z (broadcast s (Scalar.ofBits (F := Ideal) .f32 0x41A00000#32))))) i
      = softplus (z i) := rfl

/-- An affine layer depends on its input row only through the row's entries. -/
theorem affine_congr {a b : Nat} (w : Mat a b) (bias : Mat 1 b) {v v' : Fin a → EReal} (h : ∀ k, v k = v' k) (j : Fin b) :
    affine w bias v j = affine w bias v' j := by
  rw [show v = v' from funext h]

end Layer

/-! ## The kernel's layers -/

/-- The first hidden layer of the first branch, as the body computes it over the whole block, at entry (r, l): the
    rectified affine layer of input row r at l. -/
theorem hidden_mu_apply (x0 : FVec Ideal S512x512 .f32) (x1 : FVec Ideal S512x1024 .bf16) (x2 : FVec Ideal S1x1024 .f32)
    (r : Fin 512) (l : Fin 1024) :
    maximumf (addf (matmul dot_S512x512_S512x1024_S512x1024_1_0_0_1_n_n none (k0_pay3 (F := Ideal) x0) x1
          (constant (F := Ideal) S512x1024 .f32 0x00000000#32))
        (broadcastTo S512x1024 x2 broadcasts_S1x1024_S512x1024))
        (broadcast S512x1024 (Scalar.ofBits (F := Ideal) .f32 0x00000000#32)) (ix2 r l)
      = hRow x1 x2 (fun p => x0 (ix2 r p)) l :=
  relu_affine_apply plain_x_w1 (k0_pay3 (F := Ideal) x0) x1 x2 broadcasts_S1x1024_S512x1024 r l

/-- The second hidden layer of the first branch at entry (r, k): the rectified affine layer of the first hidden
    row of input row r, at k. -/
theorem pay4_apply (x0 : FVec Ideal S512x512 .f32) (x1 : FVec Ideal S512x1024 .bf16) (x2 : FVec Ideal S1x1024 .f32)
    (x5 : FVec Ideal S1024x512 .bf16) (x6 : FVec Ideal S1x512 .f32) (r k : Fin 512) :
    k0_pay4 (F := Ideal) x0 x1 x2 x5 x6 (ix2 r k) = h1Row x1 x2 x5 x6 (fun p => x0 (ix2 r p)) k := by
  unfold k0_pay4
  simp only [shapeCast_self]
  refine (relu_affine_apply plain_h_w2 _ x5 x6 broadcasts_S1x512_S512x512 r k).trans ?_
  unfold h1Row
  exact congrArg relu (affine_congr x5 x6 (fun l => hidden_mu_apply x0 x1 x2 r l) k)

/-- The hidden layer of the second branch at entry (r, l): the softened rectifier of the affine layer of input row
    r, at l. -/
theorem pay5_apply (x0 : FVec Ideal S512x512 .f32) (x3 : FVec Ideal S512x1024 .bf16) (x4 : FVec Ideal S1x1024 .f32)
    (r : Fin 512) (l : Fin 1024) :
    k0_pay5 (F := Ideal) x0 x3 x4 (ix2 r l) = tRow x3 x4 (fun p => x0 (ix2 r p)) l := by
  unfold k0_pay5
  simp only [shapeCast_self]
  rw [truncf_apply, softplus_apply]
  unfold tRow
  exact congrArg softplus (affine_apply plain_x_w1 (k0_pay3 (F := Ideal) x0) x3 x4 broadcasts_S1x1024_S512x1024 r l)

/-! ## The two stored blocks -/

/-- The first stored block: entry `y` is the first branch's output row of the block's input row `y 0`, at `y 1`. -/
theorem pay_mu_apply (x0 : Vec Ideal S512x512 .f32) (x1 : Vec Ideal S512x1024 .bf16) (x2 : Vec Ideal S1x1024 .f32)
    (x5 : Vec Ideal S1024x512 .bf16) (x6 : Vec Ideal S1x512 .f32) (x9 : Vec Ideal S512x256 .bf16) (x10 : Vec Ideal S1x256 .f32)
    (y : S512x256.Idx) :
    k0_pay2 (F := Ideal) (k0_pay4 (F := Ideal) x0 x1 x2 x5 x6) x9 x10 y
      = muRow x1 x2 x5 x6 x9 x10 (fun p : Fin 512 => x0 (ix2 (y 0) p)) (y 1) := by
  obtain ⟨r, j, rfl⟩ : ∃ (r : Fin 512) (j : Fin 256), y = ix2 r j := ⟨y 0, y 1, eq_ix2 y⟩
  show k0_pay2 (F := Ideal) (k0_pay4 (F := Ideal) x0 x1 x2 x5 x6) x9 x10 (ix2 r j)
    = muRow x1 x2 x5 x6 x9 x10 (fun p : Fin 512 => x0 (ix2 r p)) j
  unfold k0_pay2
  simp only [shapeCast_self]
  refine (affine_apply plain_h1_w3 _ x9 x10 broadcasts_S1x256_S512x256 r j).trans ?_
  unfold muRow
  exact affine_congr x9 x10 (fun k => pay4_apply x0 x1 x2 x5 x6 r k) j

/-- The second stored block: entry `y` is the second branch's output row of the block's input row `y 0`, at `y 1`. -/
theorem pay_tau_apply (x0 : Vec Ideal S512x512 .f32) (x3 : Vec Ideal S512x1024 .bf16) (x4 : Vec Ideal S1x1024 .f32)
    (x7 : Vec Ideal S1024x256 .bf16) (x8 : Vec Ideal S1x256 .f32) (y : S512x256.Idx) :
    k0_pay1 (F := Ideal) (k0_pay5 (F := Ideal) x0 x3 x4) (k0_pay6 (F := Ideal) x7) (constant (F := Ideal) S512x256 .f32 0x00000000#32) x8 y
      = tauRow x3 x4 x7 x8 (fun p : Fin 512 => x0 (ix2 (y 0) p)) (y 1) := by
  obtain ⟨r, j, rfl⟩ : ∃ (r : Fin 512) (j : Fin 256), y = ix2 r j := ⟨y 0, y 1, eq_ix2 y⟩
  show k0_pay1 (F := Ideal) (k0_pay5 (F := Ideal) x0 x3 x4) (k0_pay6 (F := Ideal) x7) (constant (F := Ideal) S512x256 .f32 0x00000000#32) x8 (ix2 r j)
    = tauRow x3 x4 x7 x8 (fun p : Fin 512 => x0 (ix2 r p)) j
  unfold k0_pay1 k0_pay6
  simp only [shapeCast_self]
  refine (affine_apply plain_t_w2 _ x7 x8 broadcasts_S1x256_S512x256 r j).trans ?_
  unfold tauRow
  exact affine_congr x7 x8 (fun l => pay5_apply x0 x3 x4 r l) j

end Cert.KernelIdeal.Payload

end
-- ==== Proof.KernelHost.lean ====
/-
  The weight arrays the two-branch kernel is launched on.

  Before the launch five weight arguments are narrowed to a shorter float format; on the extended reals a change of
  format is the identity, so each array the region finds holds its argument, entry for entry.
-/
import proofs.«108907_g2000702497057735_pallasbulk_324_2_alg».proof.Proof.Gen.KernelIdeal.Frame
import Idealize.ShloMosaic.Lib.StableHlo.Run
import Idealize.ShloMosaic.Lib.ValueIdx

noncomputable section

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (c : Dev nD)

theorem V_w1m : (V (F := Ideal) m c main_call0_v0 : S512x1024.Idx → EReal) = m ((c : Thread nD τ).loc main_arg1) := by
  dsimp only [Gen.V, Gen.hostOps0]; after_results; rfl
theorem V_w1t : (V (F := Ideal) m c main_call0_v1 : S512x1024.Idx → EReal) = m ((c : Thread nD τ).loc main_arg7) := by
  dsimp only [Gen.V, Gen.hostOps0]; after_results; rfl
theorem V_w2m : (V (F := Ideal) m c main_call0_v2 : S1024x512.Idx → EReal) = m ((c : Thread nD τ).loc main_arg3) := by
  dsimp only [Gen.V, Gen.hostOps0]; after_results; rfl
theorem V_w2t : (V (F := Ideal) m c main_call0_v3 : S1024x256.Idx → EReal) = m ((c : Thread nD τ).loc main_arg9) := by
  dsimp only [Gen.V, Gen.hostOps0]; after_results; rfl
theorem V_w3m : (V (F := Ideal) m c main_call0_v4 : S512x256.Idx → EReal) = m ((c : Thread nD τ).loc main_arg5) := by
  dsimp only [Gen.V, Gen.hostOps0]; after_results; rfl

end Cert.KernelIdeal.HostValue

end
-- ==== Proof.KernelValue.lean ====
/-
  The two result arrays of the two-branch kernel after its run, as whole-array functions of the arguments.

  The grid has 32 points; point t stages rows 512 t … 512 t + 511 of the input and writes back the same rows of each
  result, while every weight and bias window is the whole array at every point. What a point writes back is, entry
  by entry, the branch's output row of the staged input row, so it is the block of ONE whole-array function: row r of
  the result is the branch's output row of row r of the input. The 32 blocks tile the 16384 rows, so after the run
  each result array is that function.
-/
import proofs.«108907_g2000702497057735_pallasbulk_324_2_alg».proof.Proof.Gen.KernelIdeal.Value
import proofs.«108907_g2000702497057735_pallasbulk_324_2_alg».proof.Proof.KernelPayload
import proofs.«108907_g2000702497057735_pallasbulk_324_2_alg».proof.Proof.KernelHost

noncomputable section

namespace Cert.KernelIdeal.RunValue

open Cert.KernelIdeal Cert.KernelIdeal.Gen Cert.KernelIdeal.Value Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- An argument array as launched. -/
abbrev arg (c : Dev nD) (b : Ref sig .tc) : Buf (Elt Ideal) ((c : Thread nD τ).loc b) := m ((c : Thread nD τ).loc b)

/-- The first result: row r is the first branch's output row of input row r. -/
def muArr (c : Dev nD) : S16384x256.Idx → EReal :=
  Gmu (arg m c main_arg1) (arg m c main_arg2) (arg m c main_arg3) (arg m c main_arg4) (arg m c main_arg5) (arg m c main_arg6) (arg m c main_arg0)
/-- The second result: row r is the second branch's output row of input row r. -/
def tauArr (c : Dev nD) : S16384x256.Idx → EReal :=
  Gtau (arg m c main_arg7) (arg m c main_arg8) (arg m c main_arg9) (arg m c main_arg10) (arg m c main_arg0)

theorem hz : (![0, 0] : Fin 2 → Nat) = fun _ => 0 := funext fun a => by fin_cases a <;> rfl

/-- The printed index maps over the grid: the input block and both result blocks sit at block row t, block column 0;
    every weight and bias window sits at block (0, 0). -/
theorem idx_facts : ∀ t : Fin cfg0.N,
    win0_0.index t (0 : Fin 2) = t.val ∧ win0_0.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## The staged blocks -/

theorem row_lt (t : Fin cfg0.N) (r : Fin 512) : t.val * 512 + r.val < 16384 := by
  have h1 := t.isLt; have h2 := r.isLt; have h3 : cfg0.N = 32 := N_0; omega

/-- Entry (r, p) of the staged input block is entry (512 t + r, p) of the input. -/
theorem blk_x (c : Dev nD) (t : Fin cfg0.N) (r p : Fin 512) :
    iblk m c 0 t (ix2 r p) = arg m c main_arg0 (ix2 ⟨t.val * 512 + r.val, row_lt t r⟩ p) := by
  obtain ⟨e0, e1, -⟩ := idx_facts t
  show V m c main_arg0 (((cfg0.win 0).blk t).view.emb (ix2 r p)) = _
  rw [V_main_arg0]
  refine congrArg (m ((c : Thread nD τ).loc main_arg0)) (funext fun a => Fin.ext ?_)
  match a with
  | ⟨0, _⟩ => show win0_0.index t (0 : Fin 2) * 512 + 1 * r.val = t.val * 512 + r.val; omega
  | ⟨1, _⟩ => show win0_0.index t (1 : Fin 2) * 512 + 1 * p.val = p.val; omega

/-- Window 1 stages its whole array at every point: the block is argument `main_arg1`. -/
theorem blk_1 (c : Dev nD) (t : Fin cfg0.N) : (iblk m c 1 t : S512x1024.Idx → EReal) = arg m c main_arg1 := by
  have hf := idx_facts t
  have e0 : win0_1.index t (0 : Fin 2) = 0 := by tauto
  have e1 : win0_1.index t (1 : Fin 2) = 0 := by tauto
  funext j
  show V m c main_call0_v0 (((cfg0.win 1).blk t).view.emb j) = _
  have hj : ((cfg0.win 1).blk t).view.emb j = j := funext fun a => Fin.ext (by
    match a with
    | ⟨0, _⟩ => show win0_1.index t (0 : Fin 2) * 512 + 1 * (j 0).val = (j 0).val; omega
    | ⟨1, _⟩ => show win0_1.index t (1 : Fin 2) * 1024 + 1 * (j 1).val = (j 1).val; omega)
  rw [hj]
  exact congrFun (HostValue.V_w1m m c) j

/-- Window 2 stages its whole array at every point: the block is argument `main_arg2`. -/
theorem blk_2 (c : Dev nD) (t : Fin cfg0.N) : (iblk m c 2 t : S1x1024.Idx → EReal) = arg m c main_arg2 := by
  have hf := idx_facts t
  have e0 : win0_2.index t (0 : Fin 2) = 0 := by tauto
  have e1 : win0_2.index t (1 : Fin 2) = 0 := by tauto
  funext j
  show V m c main_arg2 (((cfg0.win 2).blk t).view.emb j) = _
  have hj : ((cfg0.win 2).blk t).view.emb j = j := funext fun a => Fin.ext (by
    match a with
    | ⟨0, _⟩ => show win0_2.index t (0 : Fin 2) * 1 + 1 * (j 0).val = (j 0).val; omega
    | ⟨1, _⟩ => show win0_2.index t (1 : Fin 2) * 1024 + 1 * (j 1).val = (j 1).val; omega)
  rw [hj]
  exact congrFun (V_main_arg2 m c) j

/-- Window 3 stages its whole array at every point: the block is argument `main_arg7`. -/
theorem blk_3 (c : Dev nD) (t : Fin cfg0.N) : (iblk m c 3 t : S512x1024.Idx → EReal) = arg m c main_arg7 := by
  have hf := idx_facts t
  have e0 : win0_3.index t (0 : Fin 2) = 0 := by tauto
  have e1 : win0_3.index t (1 : Fin 2) = 0 := by tauto
  funext j
  show V m c main_call0_v1 (((cfg0.win 3).blk t).view.emb j) = _
  have hj : ((cfg0.win 3).blk t).view.emb j = j := funext fun a => Fin.ext (by
    match a with
    | ⟨0, _⟩ => show win0_3.index t (0 : Fin 2) * 512 + 1 * (j 0).val = (j 0).val; omega
    | ⟨1, _⟩ => show win0_3.index t (1 : Fin 2) * 1024 + 1 * (j 1).val = (j 1).val; omega)
  rw [hj]
  exact congrFun (HostValue.V_w1t m c) j

/-- Window 4 stages its whole array at every point: the block is argument `main_arg8`. -/
theorem blk_4 (c : Dev nD) (t : Fin cfg0.N) : (iblk m c 4 t : S1x1024.Idx → EReal) = arg m c main_arg8 := by
  have hf := idx_facts t
  have e0 : win0_4.index t (0 : Fin 2) = 0 := by tauto
  have e1 : win0_4.index t (1 : Fin 2) = 0 := by tauto
  funext j
  show V m c main_arg8 (((cfg0.win 4).blk t).view.emb j) = _
  have hj : ((cfg0.win 4).blk t).view.emb j = j := funext fun a => Fin.ext (by
    match a with
    | ⟨0, _⟩ => show win0_4.index t (0 : Fin 2) * 1 + 1 * (j 0).val = (j 0).val; omega
    | ⟨1, _⟩ => show win0_4.index t (1 : Fin 2) * 1024 + 1 * (j 1).val = (j 1).val; omega)
  rw [hj]
  exact congrFun (V_main_arg8 m c) j

/-- Window 5 stages its whole array at every point: the block is argument `main_arg3`. -/
theorem blk_5 (c : Dev nD) (t : Fin cfg0.N) : (iblk m c 5 t : S1024x512.Idx → EReal) = arg m c main_arg3 := by
  have hf := idx_facts t
  have e0 : win0_5.index t (0 : Fin 2) = 0 := by tauto
  have e1 : win0_5.index t (1 : Fin 2) = 0 := by tauto
  funext j
  show V m c main_call0_v2 (((cfg0.win 5).blk t).view.emb j) = _
  have hj : ((cfg0.win 5).blk t).view.emb j = j := funext fun a => Fin.ext (by
    match a with
    | ⟨0, _⟩ => show win0_5.index t (0 : Fin 2) * 1024 + 1 * (j 0).val = (j 0).val; omega
    | ⟨1, _⟩ => show win0_5.index t (1 : Fin 2) * 512 + 1 * (j 1).val = (j 1).val; omega)
  rw [hj]
  exact congrFun (HostValue.V_w2m m c) j

/-- Window 6 stages its whole array at every point: the block is argument `main_arg4`. -/
theorem blk_6 (c : Dev nD) (t : Fin cfg0.N) : (iblk m c 6 t : S1x512.Idx → EReal) = arg m c main_arg4 := by
  have hf := idx_facts t
  have e0 : win0_6.index t (0 : Fin 2) = 0 := by tauto
  have e1 : win0_6.index t (1 : Fin 2) = 0 := by tauto
  funext j
  show V m c main_arg4 (((cfg0.win 6).blk t).view.emb j) = _
  have hj : ((cfg0.win 6).blk t).view.emb j = j := funext fun a => Fin.ext (by
    match a with
    | ⟨0, _⟩ => show win0_6.index t (0 : Fin 2) * 1 + 1 * (j 0).val = (j 0).val; omega
    | ⟨1, _⟩ => show win0_6.index t (1 : Fin 2) * 512 + 1 * (j 1).val = (j 1).val; omega)
  rw [hj]
  exact congrFun (V_main_arg4 m c) j

/-- Window 7 stages its whole array at every point: the block is argument `main_arg9`. -/
theorem blk_7 (c : Dev nD) (t : Fin cfg0.N) : (iblk m c 7 t : S1024x256.Idx → EReal) = arg m c main_arg9 := by
  have hf := idx_facts t
  have e0 : win0_7.index t (0 : Fin 2) = 0 := by tauto
  have e1 : win0_7.index t (1 : Fin 2) = 0 := by tauto
  funext j
  show V m c main_call0_v3 (((cfg0.win 7).blk t).view.emb j) = _
  have hj : ((cfg0.win 7).blk t).view.emb j = j := funext fun a => Fin.ext (by
    match a with
    | ⟨0, _⟩ => show win0_7.index t (0 : Fin 2) * 1024 + 1 * (j 0).val = (j 0).val; omega
    | ⟨1, _⟩ => show win0_7.index t (1 : Fin 2) * 256 + 1 * (j 1).val = (j 1).val; omega)
  rw [hj]
  exact congrFun (HostValue.V_w2t m c) j

/-- Window 8 stages its whole array at every point: the block is argument `main_arg10`. -/
theorem blk_8 (c : Dev nD) (t : Fin cfg0.N) : (iblk m c 8 t : S1x256.Idx → EReal) = arg m c main_arg10 := by
  have hf := idx_facts t
  have e0 : win0_8.index t (0 : Fin 2) = 0 := by tauto
  have e1 : win0_8.index t (1 : Fin 2) = 0 := by tauto
  funext j
  show V m c main_arg10 (((cfg0.win 8).blk t).view.emb j) = _
  have hj : ((cfg0.win 8).blk t).view.emb j = j := funext fun a => Fin.ext (by
    match a with
    | ⟨0, _⟩ => show win0_8.index t (0 : Fin 2) * 1 + 1 * (j 0).val = (j 0).val; omega
    | ⟨1, _⟩ => show win0_8.index t (1 : Fin 2) * 256 + 1 * (j 1).val = (j 1).val; omega)
  rw [hj]
  exact congrFun (V_main_arg10 m c) j

/-- Window 9 stages its whole array at every point: the block is argument `main_arg5`. -/
theorem blk_9 (c : Dev nD) (t : Fin cfg0.N) : (iblk m c 9 t : S512x256.Idx → EReal) = arg m c main_arg5 := by
  have hf := idx_facts t
  have e0 : win0_9.index t (0 : Fin 2) = 0 := by tauto
  have e1 : win0_9.index t (1 : Fin 2) = 0 := by tauto
  funext j
  show V m c main_call0_v4 (((cfg0.win 9).blk t).view.emb j) = _
  have hj : ((cfg0.win 9).blk t).view.emb j = j := funext fun a => Fin.ext (by
    match a with
    | ⟨0, _⟩ => show win0_9.index t (0 : Fin 2) * 512 + 1 * (j 0).val = (j 0).val; omega
    | ⟨1, _⟩ => show win0_9.index t (1 : Fin 2) * 256 + 1 * (j 1).val = (j 1).val; omega)
  rw [hj]
  exact congrFun (HostValue.V_w3m m c) j

/-- Window 10 stages its whole array at every point: the block is argument `main_arg6`. -/
theorem blk_10 (c : Dev nD) (t : Fin cfg0.N) : (iblk m c 10 t : S1x256.Idx → EReal) = arg m c main_arg6 := by
  have hf := idx_facts t
  have e0 : win0_10.index t (0 : Fin 2) = 0 := by tauto
  have e1 : win0_10.index t (1 : Fin 2) = 0 := by tauto
  funext j
  show V m c main_arg6 (((cfg0.win 10).blk t).view.emb j) = _
  have hj : ((cfg0.win 10).blk t).view.emb j = j := funext fun a => Fin.ext (by
    match a with
    | ⟨0, _⟩ => show win0_10.index t (0 : Fin 2) * 1 + 1 * (j 0).val = (j 0).val; omega
    | ⟨1, _⟩ => show win0_10.index t (1 : Fin 2) * 256 + 1 * (j 1).val = (j 1).val; omega)
  rw [hj]
  exact congrFun (V_main_arg6 m c) j

/-! ## What a point writes back -/

/-- The row of a result's block entry: entry y of block t sits in row 512 t + y 0 of the array. -/
theorem emb11 (t : Fin cfg0.N) (r : Fin 512) (j : Fin 256) :
    ((cfg0.win 11).blk t).view.emb (ix2 r j) = (ix2 ⟨t.val * 512 + r.val, row_lt t r⟩ j : S16384x256.Idx) := by
  obtain ⟨-, -, e0, e1, -⟩ := idx_facts t
  refine funext fun a => Fin.ext ?_
  match a with
  | ⟨0, _⟩ => show win0_11.index t (0 : Fin 2) * 512 + 1 * r.val = t.val * 512 + r.val; omega
  | ⟨1, _⟩ => show win0_11.index t (1 : Fin 2) * 256 + 1 * j.val = j.val; omega

theorem emb12 (t : Fin cfg0.N) (r : Fin 512) (j : Fin 256) :
    ((cfg0.win 12).blk t).view.emb (ix2 r j) = (ix2 ⟨t.val * 512 + r.val, row_lt t r⟩ j : S16384x256.Idx) := by
  obtain ⟨-, -, -, -, e0, e1, -⟩ := idx_facts t
  refine funext fun a => Fin.ext ?_
  match a with
  | ⟨0, _⟩ => show win0_12.index t (0 : Fin 2) * 512 + 1 * r.val = t.val * 512 + r.val; omega
  | ⟨1, _⟩ => show win0_12.index t (1 : Fin 2) * 256 + 1 * j.val = j.val; omega

/-- Point t writes back block t of the first result's whole-array function. -/
theorem flushed11_eq (c : Dev nD) (t : Fin cfg0.N) :
    (dats m 0 c).flushed 11 t = ((cfg0.win 11).blk t).view.read (Elt Ideal) (muArr m c) := by
  rw [flushed11]
  unfold out0_11
  rw [View.canon_unit_zero hz]
  simp only [View.ld_unit_zero (S := S512x512) hz, View.ld_unit_zero (S := S512x1024) hz, View.ld_unit_zero (S := S1x1024) hz,
    View.ld_unit_zero (S := S1024x512) hz, View.ld_unit_zero (S := S1x512) hz, View.ld_unit_zero (S := S512x256) hz,
    View.ld_unit_zero (S := S1x256) hz]
  funext y
  obtain ⟨r, j, rfl⟩ : ∃ (r : Fin 512) (j : Fin 256), y = ix2 r j := ⟨y 0, y 1, eq_ix2 y⟩
  show k0_pay2 (F := Ideal) (k0_pay4 (F := Ideal) (iblk m c 0 t) (iblk m c 1 t) (iblk m c 2 t) (iblk m c 5 t) (iblk m c 6 t)) (iblk m c 9 t) (iblk m c 10 t) (ix2 r j)
      = muArr m c (((cfg0.win 11).blk t).view.emb (ix2 r j))
  rw [emb11 t r j]
  refine (Payload.pay_mu_apply (iblk m c 0 t) (iblk m c 1 t) (iblk m c 2 t) (iblk m c 5 t) (iblk m c 6 t) (iblk m c 9 t) (iblk m c 10 t) (ix2 r j)).trans ?_
  rw [blk_1 m c t, blk_2 m c t, blk_5 m c t, blk_6 m c t, blk_9 m c t, blk_10 m c t]
  show muRow _ _ _ _ _ _ (fun p : Fin 512 => iblk m c 0 t (ix2 r p)) j = _
  simp only [blk_x m c t r]
  rfl

/-- Point t writes back block t of the second result's whole-array function. -/
theorem flushed12_eq (c : Dev nD) (t : Fin cfg0.N) :
    (dats m 0 c).flushed 12 t = ((cfg0.win 12).blk t).view.read (Elt Ideal) (tauArr m c) := by
  rw [flushed12]
  unfold out0_12
  rw [View.canon_unit_zero hz]
  simp only [View.ld_unit_zero (S := S512x512) hz, View.ld_unit_zero (S := S512x1024) hz, View.ld_unit_zero (S := S1x1024) hz,
    View.ld_unit_zero (S := S1024x256) hz, View.ld_unit_zero (S := S1x256) hz]
  funext y
  obtain ⟨r, j, rfl⟩ : ∃ (r : Fin 512) (j : Fin 256), y = ix2 r j := ⟨y 0, y 1, eq_ix2 y⟩
  show k0_pay1 (F := Ideal) (k0_pay5 (F := Ideal) (iblk m c 0 t) (iblk m c 3 t) (iblk m c 4 t)) (k0_pay6 (F := Ideal) (iblk m c 7 t)) (constant (F := Ideal) S512x256 .f32 0x00000000#32) (iblk m c 8 t) (ix2 r j)
      = tauArr m c (((cfg0.win 12).blk t).view.emb (ix2 r j))
  rw [emb12 t r j]
  refine (Payload.pay_tau_apply (iblk m c 0 t) (iblk m c 3 t) (iblk m c 4 t) (iblk m c 7 t) (iblk m c 8 t) (ix2 r j)).trans ?_
  rw [blk_3 m c t, blk_4 m c t, blk_7 m c t, blk_8 m c t]
  show tauRow _ _ _ _ (fun p : Fin 512 => iblk m c 0 t (ix2 r p)) j = _
  simp only [blk_x m c t r]
  rfl

/-! ## The blocks tile the rows -/

theorem mem_blk11 (t : Fin cfg0.N) (i : S16384x256.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v0_0).slice (win0_11.rect t)).set ↔ _
  rw [View.set_slice_whole, Rect.mem_set_unit]
  exact Iff.rfl

theorem mem_blk12 (t : Fin cfg0.N) (i : S16384x256.Idx) :
    i ∈ ((cfg0.win 12).blk t).view.set ↔ ∀ a : Fin 2, win0_12.index t a * S512x256.size a ≤ (i a).val ∧ (i a).val < win0_12.index t a * S512x256.size a + S512x256.size a := by
  show i ∈ ((View.whole main_v0_1).slice (win0_12.rect t)).set ↔ _
  rw [View.set_slice_whole, Rect.mem_set_unit]
  exact Iff.rfl

/-- Every row of the first result is in the block of the point its row number divided by 512 names. -/
theorem cover11 (i : S16384x256.Idx) : ∃ t : Fin cfg0.N, (cfg0.win 11).flush t = true ∧ i ∈ ((cfg0.win 11).blk t).view.set := by
  have hi0 : (i 0).val < 16384 := (i 0).isLt
  have hi1 : (i 1).val < 256 := (i 1).isLt
  have hN : cfg0.N = 32 := N_0
  let t : Fin cfg0.N := ⟨(i 0).val / 512, by omega⟩
  obtain ⟨-, -, e0, e1, -⟩ := idx_facts t
  have ht : t.val = (i 0).val / 512 := rfl
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 256 ≤ (i 1).val ∧ (i 1).val < win0_11.index t (1 : Fin 2) * 256 + 256; omega

theorem cover12 (i : S16384x256.Idx) : ∃ t : Fin cfg0.N, (cfg0.win 12).flush t = true ∧ i ∈ ((cfg0.win 12).blk t).view.set := by
  have hi0 : (i 0).val < 16384 := (i 0).isLt
  have hi1 : (i 1).val < 256 := (i 1).isLt
  have hN : cfg0.N = 32 := N_0
  let t : Fin cfg0.N := ⟨(i 0).val / 512, by omega⟩
  obtain ⟨-, -, -, -, e0, e1, -⟩ := idx_facts t
  have ht : t.val = (i 0).val / 512 := rfl
  refine ⟨t, flush0_12 t, ?_⟩
  rw [mem_blk12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 256 ≤ (i 1).val ∧ (i 1).val < win0_12.index t (1 : Fin 2) * 256 + 256; omega

/-- The first result array after the run. -/
theorem final11 (c : Dev nD) : (dats m 0 c).arrAt 11 cfg0.N = muArr m c :=
  (dats m 0 c).arrAt_eq_of_cover 11 (muArr m c) (fun t _ => flushed11_eq m c t) cover11

/-- The second result array after the run. -/
theorem final12 (c : Dev nD) : (dats m 0 c).arrAt 12 cfg0.N = tauArr m c :=
  (dats m 0 c).arrAt_eq_of_cover 12 (tauArr m c) (fun t _ => flushed12_eq m c t) cover12

/-! ## The run, read -/

/-- Every weakly fair execution ends with each result array at its whole-array function of the arguments, the
    arguments unchanged. -/
theorem run : θ_run defs (onTc (τ := τ) (main (F := Ideal))) ⟨m, fun _ => 0, ρ⟩ fun r => ∀ c : Dev nD,
      r.2.mem ((c : Thread nD τ).loc main_v0_0) = muArr m c
      ∧ r.2.mem ((c : Thread nD τ).loc main_v0_1) = tauArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2⟩)
    (run_blocks m ρ)

end Cert.KernelIdeal.RunValue

end
-- ==== Proof.Fused.lean ====
/-
  The fused network against the two separate ones, one row at a time, on the extended reals.

  The fused network runs three affine layers on wider rows. Its weights pack the two branches:
    layer 1: the columns of `w1m` then those of `w1t` (biases alike), the rectifier on the first 1024 entries and the
             softened rectifier on the last 1024;
    layer 2: block diagonal, `w2m` top left and `w2t` bottom right, zeros elsewhere (biases side by side), the rectifier
             on the first 512 entries only;
    layer 3: block diagonal, `w3m` top left and the identity bottom right, zeros elsewhere, bias `b3m` then zeros.
  A sum over a packed axis splits into the sum over its first part and the sum over its second part; a zero block
  contributes zero terms (zero times any extended real is zero), and the identity block leaves the one term on its
  diagonal. So the first 256 entries of the fused row are the first branch's output row and the last 256 the second's.
-/
import proofs.«108907_g2000702497057735_pallasbulk_324_2_alg».proof.Proof.Spec
import Mathlib.Algebra.BigOperators.Fin
import Mathlib.Data.EReal.Inv

noncomputable section

open scoped BigOperators

namespace Cert.Fused

open Idealize.ShloMosaic Idealize.ShloMosaic.ValueIdx Cert.Spec

/-- The fused row: three affine layers, the activations chosen by the entry's position. -/
def fusedRow (w1 : Mat 512 2048) (b1 : Mat 1 2048) (w2 : Mat 2048 768) (b2 : Mat 1 768) (w3 : Mat 768 512) (b3 : Mat 1 512)
    (xr : Fin 512 → EReal) (j : Fin 512) : EReal :=
  affine w3 b3
    (fun k : Fin 768 =>
      if k.val < 512 then relu (affine w2 b2 (fun l : Fin 2048 =>
          if l.val < 1024 then relu (affine w1 b1 xr l) else softplus (affine w1 b1 xr l)) k)
      else affine w2 b2 (fun l : Fin 2048 =>
          if l.val < 1024 then relu (affine w1 b1 xr l) else softplus (affine w1 b1 xr l)) k) j

/-- The fused weights pack the two branches' weights as described above. -/
structure Packed (w1m : Mat 512 1024) (b1m : Mat 1 1024) (w2m : Mat 1024 512) (b2m : Mat 1 512) (w3m : Mat 512 256) (b3m : Mat 1 256)
    (w1t : Mat 512 1024) (b1t : Mat 1 1024) (w2t : Mat 1024 256) (b2t : Mat 1 256)
    (w1 : Mat 512 2048) (b1 : Mat 1 2048) (w2 : Mat 2048 768) (b2 : Mat 1 768) (w3 : Mat 768 512) (b3 : Mat 1 512) : Prop where
  w1_l : ∀ (p : Fin 512) (l : Fin 1024), w1 (ix2 p ⟨l.val, by omega⟩) = w1m (ix2 p l)
  w1_r : ∀ (p : Fin 512) (l : Fin 1024), w1 (ix2 p ⟨l.val + 1024, by omega⟩) = w1t (ix2 p l)
  b1_l : ∀ (l : Fin 1024), b1 (ix2 0 ⟨l.val, by omega⟩) = b1m (ix2 0 l)
  b1_r : ∀ (l : Fin 1024), b1 (ix2 0 ⟨l.val + 1024, by omega⟩) = b1t (ix2 0 l)
  w2_ll : ∀ (l : Fin 1024) (k : Fin 512), w2 (ix2 ⟨l.val, by omega⟩ ⟨k.val, by omega⟩) = w2m (ix2 l k)
  w2_lr : ∀ (l : Fin 1024) (k : Fin 256), w2 (ix2 ⟨l.val, by omega⟩ ⟨k.val + 512, by omega⟩) = 0
  w2_rl : ∀ (l : Fin 1024) (k : Fin 512), w2 (ix2 ⟨l.val + 1024, by omega⟩ ⟨k.val, by omega⟩) = 0
  w2_rr : ∀ (l : Fin 1024) (k : Fin 256), w2 (ix2 ⟨l.val + 1024, by omega⟩ ⟨k.val + 512, by omega⟩) = w2t (ix2 l k)
  b2_l : ∀ (k : Fin 512), b2 (ix2 0 ⟨k.val, by omega⟩) = b2m (ix2 0 k)
  b2_r : ∀ (k : Fin 256), b2 (ix2 0 ⟨k.val + 512, by omega⟩) = b2t (ix2 0 k)
  w3_ll : ∀ (k : Fin 512) (j : Fin 256), w3 (ix2 ⟨k.val, by omega⟩ ⟨j.val, by omega⟩) = w3m (ix2 k j)
  w3_lr : ∀ (k : Fin 512) (j : Fin 256), w3 (ix2 ⟨k.val, by omega⟩ ⟨j.val + 256, by omega⟩) = 0
  w3_rl : ∀ (k : Fin 256) (j : Fin 256), w3 (ix2 ⟨k.val + 512, by omega⟩ ⟨j.val, by omega⟩) = 0
  w3_rr : ∀ (k : Fin 256) (j : Fin 256), w3 (ix2 ⟨k.val + 512, by omega⟩ ⟨j.val + 256, by omega⟩) = if k = j then 1 else 0
  b3_l : ∀ (j : Fin 256), b3 (ix2 0 ⟨j.val, by omega⟩) = b3m (ix2 0 j)
  b3_r : ∀ (j : Fin 256), b3 (ix2 0 ⟨j.val + 256, by omega⟩) = 0

/-! ## Sums over a packed axis -/

/-- A sum over `m + n` indices is the sum over the first `m` of them plus the sum over the last `n`. -/
theorem sum_split {M : Type*} [AddCommMonoid M] {N : Nat} (m n : Nat) (hN : N = m + n) (f : Fin N → M) :
    ∑ k, f k = (∑ k : Fin m, f ⟨k.val, by omega⟩) + ∑ k : Fin n, f ⟨k.val + m, by omega⟩ := by
  subst hN
  rw [Fin.sum_univ_add]
  have e1 : (∑ k : Fin m, f (Fin.castAdd n k)) = ∑ k : Fin m, f ⟨k.val, by omega⟩ :=
    Finset.sum_congr rfl fun k _ => congrArg f (Fin.ext rfl)
  have e2 : (∑ k : Fin n, f (Fin.natAdd m k)) = ∑ k : Fin n, f ⟨k.val + m, by omega⟩ :=
    Finset.sum_congr rfl fun k _ => congrArg f (Fin.ext (Nat.add_comm m k.val))
  rw [e1, e2]

/-- An affine layer whose input axis is packed from `a1` and `a2` entries: the row-times-column sum is the sum over the
    first part plus the sum over the second part. -/
theorem affine_split {a b : Nat} (a1 a2 : Nat) (ha : a = a1 + a2) (w : Mat a b) (bias : Mat 1 b) (v : Fin a → EReal)
    (j : Fin b) :
    affine w bias v j =
      ((∑ k : Fin a1, v ⟨k.val, by omega⟩ * w (ix2 ⟨k.val, by omega⟩ j))
        + ∑ k : Fin a2, v ⟨k.val + a1, by omega⟩ * w (ix2 ⟨k.val + a1, by omega⟩ j)) + bias (ix2 0 j) := by
  unfold affine
  rw [sum_split a1 a2 ha]

/-- Two affine layers on the same input whose columns `j` and `j'` of weights and biases agree have equal entries there. -/
theorem affine_cols {a b b' : Nat} (w : Mat a b) (bias : Mat 1 b) (w' : Mat a b') (bias' : Mat 1 b') (v : Fin a → EReal)
    (j : Fin b) (j' : Fin b') (hw : ∀ k : Fin a, w (ix2 k j) = w' (ix2 k j')) (hb : bias (ix2 0 j) = bias' (ix2 0 j')) :
    affine w bias v j = affine w' bias' v j' := by
  unfold affine
  rw [hb]
  exact congrArg (· + bias' (ix2 0 j')) (Finset.sum_congr rfl fun k _ => by rw [hw k])

/-- Column `j` of the packed weights is column `j'` of `w'` on the first part of the input axis and zero on the second:
    the second part contributes nothing, since every one of its terms is a value times zero. -/
theorem affine_first {a b b' : Nat} (a1 a2 : Nat) (ha : a = a1 + a2) (w : Mat a b) (bias : Mat 1 b) (v : Fin a → EReal)
    (j : Fin b) (w' : Mat a1 b') (bias' : Mat 1 b') (v' : Fin a1 → EReal) (j' : Fin b')
    (hv : ∀ k : Fin a1, v ⟨k.val, by omega⟩ = v' k)
    (hw : ∀ k : Fin a1, w (ix2 ⟨k.val, by omega⟩ j) = w' (ix2 k j'))
    (hz : ∀ k : Fin a2, w (ix2 ⟨k.val + a1, by omega⟩ j) = 0)
    (hb : bias (ix2 0 j) = bias' (ix2 0 j')) :
    affine w bias v j = affine w' bias' v' j' := by
  have h1 : (∑ k : Fin a1, v ⟨k.val, by omega⟩ * w (ix2 ⟨k.val, by omega⟩ j)) = ∑ k : Fin a1, v' k * w' (ix2 k j') :=
    Finset.sum_congr rfl fun k _ => by rw [hv k, hw k]
  have h2 : (∑ k : Fin a2, v ⟨k.val + a1, by omega⟩ * w (ix2 ⟨k.val + a1, by omega⟩ j)) = 0 :=
    Finset.sum_eq_zero fun k _ => by rw [hz k, mul_zero]
  rw [affine_split a1 a2 ha, h1, h2, add_zero, hb]
  rfl

/-- Column `j` of the packed weights is zero on the first part of the input axis and column `j'` of `w'` on the second:
    the first part contributes nothing. -/
theorem affine_second {a b b' : Nat} (a1 a2 : Nat) (ha : a = a1 + a2) (w : Mat a b) (bias : Mat 1 b) (v : Fin a → EReal)
    (j : Fin b) (w' : Mat a2 b') (bias' : Mat 1 b') (v' : Fin a2 → EReal) (j' : Fin b')
    (hv : ∀ k : Fin a2, v ⟨k.val + a1, by omega⟩ = v' k)
    (hz : ∀ k : Fin a1, w (ix2 ⟨k.val, by omega⟩ j) = 0)
    (hw : ∀ k : Fin a2, w (ix2 ⟨k.val + a1, by omega⟩ j) = w' (ix2 k j'))
    (hb : bias (ix2 0 j) = bias' (ix2 0 j')) :
    affine w bias v j = affine w' bias' v' j' := by
  have h1 : (∑ k : Fin a1, v ⟨k.val, by omega⟩ * w (ix2 ⟨k.val, by omega⟩ j)) = 0 :=
    Finset.sum_eq_zero fun k _ => by rw [hz k, mul_zero]
  have h2 : (∑ k : Fin a2, v ⟨k.val + a1, by omega⟩ * w (ix2 ⟨k.val + a1, by omega⟩ j)) = ∑ k : Fin a2, v' k * w' (ix2 k j') :=
    Finset.sum_congr rfl fun k _ => by rw [hv k, hw k]
  rw [affine_split a1 a2 ha, h1, h2, zero_add, hb]
  rfl

/-- Column `j` of the packed weights is zero on the first part of the input axis and column `j'` of the identity on the
    second, and the bias there is zero: the entry is the input's entry `j'` of the second part, the one term on the diagonal
    (a value times one), every other term being a value times zero. -/
theorem affine_second_id {a b : Nat} (a1 a2 : Nat) (ha : a = a1 + a2) (w : Mat a b) (bias : Mat 1 b) (v : Fin a → EReal)
    (j : Fin b) (v' : Fin a2 → EReal) (j' : Fin a2)
    (hv : ∀ k : Fin a2, v ⟨k.val + a1, by omega⟩ = v' k)
    (hz : ∀ k : Fin a1, w (ix2 ⟨k.val, by omega⟩ j) = 0)
    (hw : ∀ k : Fin a2, w (ix2 ⟨k.val + a1, by omega⟩ j) = if k = j' then 1 else 0)
    (hb : bias (ix2 0 j) = 0) :
    affine w bias v j = v' j' := by
  have h1 : (∑ k : Fin a1, v ⟨k.val, by omega⟩ * w (ix2 ⟨k.val, by omega⟩ j)) = 0 :=
    Finset.sum_eq_zero fun k _ => by rw [hz k, mul_zero]
  have h2 : (∑ k : Fin a2, v ⟨k.val + a1, by omega⟩ * w (ix2 ⟨k.val + a1, by omega⟩ j)) = v' j' := by
    rw [Finset.sum_eq_single j' (fun k _ hk => by rw [hw k, if_neg hk, mul_zero])
      (fun hj => absurd (Finset.mem_univ j') hj), hv j', hw j', if_pos rfl, mul_one]
  rw [affine_split a1 a2 ha, h1, h2, zero_add, hb, add_zero]

section
variable {w1m : Mat 512 1024} {b1m : Mat 1 1024} {w2m : Mat 1024 512} {b2m : Mat 1 512} {w3m : Mat 512 256} {b3m : Mat 1 256}
  {w1t : Mat 512 1024} {b1t : Mat 1 1024} {w2t : Mat 1024 256} {b2t : Mat 1 256}
  {w1 : Mat 512 2048} {b1 : Mat 1 2048} {w2 : Mat 2048 768} {b2 : Mat 1 768} {w3 : Mat 768 512} {b3 : Mat 1 512}

/-! ## The three packed layers -/

/-- The fused network's first hidden row: the packed first layer with the rectifier on its first 1024 entries and the
    softened rectifier on its last 1024. -/
def hid1 (w1 : Mat 512 2048) (b1 : Mat 1 2048) (xr : Fin 512 → EReal) (l : Fin 2048) : EReal :=
  if l.val < 1024 then relu (affine w1 b1 xr l) else softplus (affine w1 b1 xr l)

/-- The fused network's second hidden row: the packed second layer with the rectifier on its first 512 entries only. -/
def hid2 (w1 : Mat 512 2048) (b1 : Mat 1 2048) (w2 : Mat 2048 768) (b2 : Mat 1 768) (xr : Fin 512 → EReal) (k : Fin 768) : EReal :=
  if k.val < 512 then relu (affine w2 b2 (hid1 w1 b1 xr) k) else affine w2 b2 (hid1 w1 b1 xr) k

/-- The fused row is the packed third layer on the second hidden row. -/
theorem fusedRow_eq (w1 : Mat 512 2048) (b1 : Mat 1 2048) (w2 : Mat 2048 768) (b2 : Mat 1 768) (w3 : Mat 768 512) (b3 : Mat 1 512)
    (xr : Fin 512 → EReal) (j : Fin 512) :
    fusedRow w1 b1 w2 b2 w3 b3 xr j = affine w3 b3 (hid2 w1 b1 w2 b2 xr) j := rfl

/-- Layer 1, first half: only the columns are packed, and the position test picks the rectifier. -/
theorem hid1_left (h : Packed w1m b1m w2m b2m w3m b3m w1t b1t w2t b2t w1 b1 w2 b2 w3 b3) (xr : Fin 512 → EReal) (l : Fin 1024) :
    hid1 w1 b1 xr ⟨l.val, by omega⟩ = hRow w1m b1m xr l := by
  unfold hid1 hRow
  rw [if_pos (show (⟨l.val, by omega⟩ : Fin 2048).val < 1024 from l.isLt),
    affine_cols w1 b1 w1m b1m xr ⟨l.val, by omega⟩ l (fun p => h.w1_l p l) (h.b1_l l)]

/-- Layer 1, second half: the position test picks the softened rectifier. -/
theorem hid1_right (h : Packed w1m b1m w2m b2m w3m b3m w1t b1t w2t b2t w1 b1 w2 b2 w3 b3) (xr : Fin 512 → EReal) (l : Fin 1024) :
    hid1 w1 b1 xr ⟨l.val + 1024, by omega⟩ = tRow w1t b1t xr l := by
  unfold hid1 tRow
  rw [if_neg (show ¬ (⟨l.val + 1024, by omega⟩ : Fin 2048).val < 1024 from Nat.not_lt.mpr (Nat.le_add_left 1024 l.val)),
    affine_cols w1 b1 w1t b1t xr ⟨l.val + 1024, by omega⟩ l (fun p => h.w1_r p l) (h.b1_r l)]

/-- Layer 2, first 512 entries: the lower left block of the weights is zero, so only the first branch's hidden row
    enters, through `w2m`; the position test keeps the rectifier. -/
theorem hid2_left (h : Packed w1m b1m w2m b2m w3m b3m w1t b1t w2t b2t w1 b1 w2 b2 w3 b3) (xr : Fin 512 → EReal) (k : Fin 512) :
    hid2 w1 b1 w2 b2 xr ⟨k.val, by omega⟩ = h1Row w1m b1m w2m b2m xr k := by
  unfold hid2 h1Row
  rw [if_pos (show (⟨k.val, by omega⟩ : Fin 768).val < 512 from k.isLt),
    affine_first 1024 1024 rfl w2 b2 (hid1 w1 b1 xr) ⟨k.val, by omega⟩ w2m b2m (hRow w1m b1m xr) k
      (fun l => hid1_left h xr l) (fun l => h.w2_ll l k) (fun l => h.w2_rl l k) (h.b2_l k)]

/-- Layer 2, last 256 entries: the upper right block of the weights is zero, so only the second branch's hidden row
    enters, through `w2t`, and no activation follows: this is the second branch's output row. -/
theorem hid2_right (h : Packed w1m b1m w2m b2m w3m b3m w1t b1t w2t b2t w1 b1 w2 b2 w3 b3) (xr : Fin 512 → EReal) (k : Fin 256) :
    hid2 w1 b1 w2 b2 xr ⟨k.val + 512, by omega⟩ = tauRow w1t b1t w2t b2t xr k := by
  unfold hid2 tauRow
  rw [if_neg (show ¬ (⟨k.val + 512, by omega⟩ : Fin 768).val < 512 from Nat.not_lt.mpr (Nat.le_add_left 512 k.val)),
    affine_second 1024 1024 rfl w2 b2 (hid1 w1 b1 xr) ⟨k.val + 512, by omega⟩ w2t b2t (tRow w1t b1t xr) k
      (fun l => hid1_right h xr l) (fun l => h.w2_lr l k) (fun l => h.w2_rr l k) (h.b2_r k)]

/-- The first 256 entries of the fused row are the first branch's output row. -/
theorem fusedRow_left (h : Packed w1m b1m w2m b2m w3m b3m w1t b1t w2t b2t w1 b1 w2 b2 w3 b3) (xr : Fin 512 → EReal) (j : Fin 256) :
    fusedRow w1 b1 w2 b2 w3 b3 xr ⟨j.val, by omega⟩ = muRow w1m b1m w2m b2m w3m b3m xr j := by
  rw [fusedRow_eq]
  unfold muRow
  exact affine_first 512 256 rfl w3 b3 (hid2 w1 b1 w2 b2 xr) ⟨j.val, by omega⟩ w3m b3m (h1Row w1m b1m w2m b2m xr) j
    (fun k => hid2_left h xr k) (fun k => h.w3_ll k j) (fun k => h.w3_rl k j) (h.b3_l j)

/-- The last 256 entries of the fused row are the second branch's output row. -/
theorem fusedRow_right (h : Packed w1m b1m w2m b2m w3m b3m w1t b1t w2t b2t w1 b1 w2 b2 w3 b3) (xr : Fin 512 → EReal) (j : Fin 256) :
    fusedRow w1 b1 w2 b2 w3 b3 xr ⟨j.val + 256, by omega⟩ = tauRow w1t b1t w2t b2t xr j := by
  rw [fusedRow_eq]
  exact affine_second_id 512 256 rfl w3 b3 (hid2 w1 b1 w2 b2 xr) ⟨j.val + 256, by omega⟩ (tauRow w1t b1t w2t b2t xr) j
    (fun k => hid2_right h xr k) (fun k => h.w3_lr k j) (fun k => h.w3_rr k j) (h.b3_r j)
end

end Cert.Fused

end
-- ==== Proof.RefPayload.lean ====
/-
  What the body of the fused kernel stores, entry by entry, on the extended reals.

  The body loads a block of 512 input rows and the whole packed weights and biases, and stores one block of 512 rows
  of 512 entries: entry (r, j) is the fused row of input row r at j. Each matrix product into a zero accumulator is,
  entry by entry, the finite sum of products; a bias row broadcast down the block adds the bias entry of the column;
  the lane counter compared with a constant decides, by the entry's column alone, which activation is kept.
-/
import proofs.«108907_g2000702497057735_pallasbulk_324_2_alg».proof.Proof.Gen.ReferenceIdeal.Skeleton
import proofs.«108907_g2000702497057735_pallasbulk_324_2_alg».proof.Proof.Fused
import proofs.«108907_g2000702497057735_pallasbulk_324_2_alg».proof.Proof.LibPlainDot
import Idealize.ShloMosaic.Lib.Pipeline.Value
import Idealize.ShloMosaic.Lib.ValueLayout

noncomputable section

open scoped BigOperators

namespace Cert.ReferenceIdeal.Payload

open Idealize.ShloMosaic Idealize.ShloMosaic.ValueIdx Cert.ReferenceIdeal Cert.ReferenceIdeal.Gen Cert.Spec Cert.Fused

/-! ## The three products are plain -/

theorem plain1 : Cert.Lib.PlainDot.Plain dot_S512x512_S512x2048_S512x2048_1_0_0_1_n_n := ⟨rfl, rfl, rfl, rfl, rfl, rfl⟩
theorem plain2 : Cert.Lib.PlainDot.Plain dot_S512x2048_S2048x768_S512x768_1_0_0_1_n_n := ⟨rfl, rfl, rfl, rfl, rfl, rfl⟩
theorem plain3 : Cert.Lib.PlainDot.Plain dot_S512x768_S768x512_S512x512_1_0_0_1_n_n := ⟨rfl, rfl, rfl, rfl, rfl, rfl⟩

/-! ## The lane counter against a constant -/

/-- For naturals below 2^31 the signed comparison of their 32-bit words is the comparison of the naturals. -/
theorem slt_ofNat (n c : Nat) (hn : n < 2 ^ 31) (hc : c < 2 ^ 31) :
    IntOp.cmpi .slt (BitVec.ofNat 32 n) (BitVec.ofNat 32 c) = if n < c then 1#1 else 0#1 := by
  have toInt_small : ∀ m : Nat, m < 2 ^ 31 → (BitVec.ofNat 32 m).toInt = (m : Int) := fun m hm => by
    have h1 : (BitVec.ofNat 32 m).toNat = m := by rw [BitVec.toNat_ofNat]; exact Nat.mod_eq_of_lt (by omega)
    rw [BitVec.toInt_eq_toNat_of_lt (by rw [h1]; omega), h1]
  show BitVec.ofBool ((BitVec.ofNat 32 n).slt (BitVec.ofNat 32 c)) = _
  rw [BitVec.slt_eq_decide, toInt_small n hn, toInt_small c hc]
  by_cases hlt : n < c
  · rw [if_pos hlt, decide_eq_true (by exact_mod_cast hlt)]; rfl
  · rw [if_neg hlt, decide_eq_false (by exact_mod_cast hlt)]; rfl

/-! ## One affine layer at an entry -/

/-- A product into the zero accumulator plus a bias row broadcast down the block is, at entry (r, j), the affine layer
    applied to row r of the left operand, at j. -/
theorem layer_apply {M K N : Nat} {d : DotDims (⟨2, ![M, K]⟩ : Shape) (⟨2, ![K, N]⟩ : Shape) (⟨2, ![M, N]⟩ : Shape)}
    (h : Cert.Lib.PlainDot.Plain d)
    (a : FVec Ideal (⟨2, ![M, K]⟩ : Shape) .f32) (w : FVec Ideal (⟨2, ![K, N]⟩ : Shape) .f32) (b : FVec Ideal (⟨2, ![1, N]⟩ : Shape) .f32)
    (hs : (⟨2, ![K, N]⟩ : Shape).ShapeCasts ⟨2, ![K, N]⟩) (hc : (⟨2, ![1, N]⟩ : Shape).ShapeCasts ⟨2, ![1, N]⟩)
    (hb : (⟨2, ![1, N]⟩ : Shape).Broadcasts ⟨2, ![M, N]⟩) (r : Fin M) (j : Fin N) :
    addf (FloatOps.matmul d none a (shapeCast (⟨2, ![K, N]⟩ : Shape) w hs) (constant (F := Ideal) (⟨2, ![M, N]⟩ : Shape) .f32 0x00000000#32))
        (broadcastTo (⟨2, ![M, N]⟩ : Shape) (shapeCast (⟨2, ![1, N]⟩ : Shape) b hc) hb) (ix2 r j)
      = affine w b (fun k => a (ix2 r k)) j := by
  rw [addf_apply, Cert.Lib.PlainDot.matmul_zero_apply h, shapeCast_self, shapeCast_self, broadcastTo_1b_ab_apply]
  rfl

/-! ## The two activations at an entry -/

/-- The first activation of a block: on lanes below 1024 the rectifier, on the others the softened rectifier. -/
def actA (z : FVec Ideal S512x2048 .f32) : FVec Ideal S512x2048 .f32 :=
  select (cmpi .slt (iota .tc S512x2048 32 [1] iota_S512x2048_d1_w32) (broadcast S512x2048 1024#32))
    (maximumf z (broadcast S512x2048 (Scalar.ofBits (F := Ideal) .f32 0x00000000#32)))
    (select (cmpf .ogt z (broadcast S512x2048 (Scalar.ofBits (F := Ideal) .f32 0x41A00000#32))) z
      (log1p (exp (minimumf z (broadcast S512x2048 (Scalar.ofBits (F := Ideal) .f32 0x41A00000#32))))))

/-- The second activation of a block: on lanes below 512 the rectifier, on the others nothing. -/
def actB (z : FVec Ideal S512x768 .f32) : FVec Ideal S512x768 .f32 :=
  select (cmpi .slt (iota .tc S512x768 32 [1] iota_S512x768_d1_w32) (broadcast S512x768 512#32))
    (maximumf z (broadcast S512x768 (Scalar.ofBits (F := Ideal) .f32 0x00000000#32))) z

/-- The lane counter of a [512, 2048] block compared with 1024, at (r, l): decided by l alone. -/
theorem maskA_apply (r : Fin 512) (l : Fin 2048) :
    cmpi .slt (iota .tc S512x2048 32 [1] iota_S512x2048_d1_w32) (broadcast S512x2048 1024#32) (ix2 r l)
      = if l.val < 1024 then 1#1 else 0#1 := by
  show IntOp.cmpi .slt (iota .tc S512x2048 32 [1] iota_S512x2048_d1_w32 (ix2 r l)) 1024#32 = _
  rw [iota_single_apply]
  exact slt_ofNat l.val 1024 (by have := l.isLt; omega) (by norm_num)

/-- The lane counter of a [512, 768] block compared with 512, at (r, k): decided by k alone. -/
theorem maskB_apply (r : Fin 512) (k : Fin 768) :
    cmpi .slt (iota .tc S512x768 32 [1] iota_S512x768_d1_w32) (broadcast S512x768 512#32) (ix2 r k)
      = if k.val < 512 then 1#1 else 0#1 := by
  show IntOp.cmpi .slt (iota .tc S512x768 32 [1] iota_S512x768_d1_w32 (ix2 r k)) 512#32 = _
  rw [iota_single_apply]
  exact slt_ofNat k.val 512 (by have := k.isLt; omega) (by norm_num)

/-- The first activation at (r, l): the rectifier of the entry when l < 1024, its softened rectifier otherwise. -/
theorem actA_apply (z : FVec Ideal S512x2048 .f32) (r : Fin 512) (l : Fin 2048) :
    actA z (ix2 r l) = if l.val < 1024 then relu (z (ix2 r l)) else softplus (z (ix2 r l)) := by
  show Scalar.select (cmpi .slt (iota .tc S512x2048 32 [1] iota_S512x2048_d1_w32) (broadcast S512x2048 1024#32) (ix2 r l))
      (relu (z (ix2 r l))) (softplus (z (ix2 r l))) = _
  rw [maskA_apply]
  by_cases h : l.val < 1024
  · rw [if_pos h, if_pos h, select_one]
  · rw [if_neg h, if_neg h, select_zero]

/-- The second activation at (r, k): the rectifier of the entry when k < 512, the entry itself otherwise. -/
theorem actB_apply (z : FVec Ideal S512x768 .f32) (r : Fin 512) (k : Fin 768) :
    actB z (ix2 r k) = if k.val < 512 then relu (z (ix2 r k)) else z (ix2 r k) := by
  show Scalar.select (cmpi .slt (iota .tc S512x768 32 [1] iota_S512x768_d1_w32) (broadcast S512x768 512#32) (ix2 r k))
      (relu (z (ix2 r k))) (z (ix2 r k)) = _
  rw [maskB_apply]
  by_cases h : k.val < 512
  · rw [if_pos h, if_pos h, select_one]
  · rw [if_neg h, if_neg h, select_zero]

/-! ## The stored block -/

/-- The first layer's block before its activation. -/
def pre1 (x0 : FVec Ideal S512x512 .f32) (x1 : FVec Ideal S512x2048 .f32) (x2 : FVec Ideal S1x2048 .f32) : FVec Ideal S512x2048 .f32 :=
  addf (matmul dot_S512x512_S512x2048_S512x2048_1_0_0_1_n_n none x0 (shapeCast S512x2048 x1 shapeCasts_S512x2048_S512x2048)
      (constant (F := Ideal) S512x2048 .f32 0x00000000#32))
    (broadcastTo S512x2048 (shapeCast S1x2048 x2 shapeCasts_S1x2048_S1x2048) broadcasts_S1x2048_S512x2048)

/-- The second layer's block before its activation, from the first layer's activations. -/
def pre2 (a : FVec Ideal S512x2048 .f32) (x3 : FVec Ideal S2048x768 .f32) (x4 : FVec Ideal S1x768 .f32) : FVec Ideal S512x768 .f32 :=
  addf (matmul dot_S512x2048_S2048x768_S512x768_1_0_0_1_n_n none a (shapeCast S2048x768 x3 shapeCasts_S2048x768_S2048x768)
      (constant (F := Ideal) S512x768 .f32 0x00000000#32))
    (broadcastTo S512x768 (shapeCast S1x768 x4 shapeCasts_S1x768_S1x768) broadcasts_S1x768_S512x768)

/-- The third layer's block, from the second layer's activations. -/
def pre3 (a : FVec Ideal S512x768 .f32) (x5 : FVec Ideal S768x512 .f32) (x6 : FVec Ideal S1x512 .f32) : FVec Ideal S512x512 .f32 :=
  addf (matmul dot_S512x768_S768x512_S512x512_1_0_0_1_n_n none a (shapeCast S768x512 x5 shapeCasts_S768x512_S768x512)
      (constant (F := Ideal) S512x512 .f32 0x00000000#32))
    (broadcastTo S512x512 (shapeCast S1x512 x6 shapeCasts_S1x512_S1x512) broadcasts_S1x512_S512x512)

/-- The stored block is the three layers composed. -/
theorem pay_eq (x0 : FVec Ideal S512x512 .f32) (x1 : FVec Ideal S512x2048 .f32) (x2 : FVec Ideal S1x2048 .f32)
    (x3 : FVec Ideal S2048x768 .f32) (x4 : FVec Ideal S1x768 .f32) (x5 : FVec Ideal S768x512 .f32) (x6 : FVec Ideal S1x512 .f32) :
    k0_pay1 (F := Ideal) (k0_pay2 (F := Ideal) x0 x1 x2 x3 x4 x5) x6
      = pre3 (actB (pre2 (actA (pre1 x0 x1 x2)) x3 x4)) x5 x6 := rfl

/-- The first layer's block at (r, l): the affine layer on row r of the input, at l. -/
theorem pre1_apply (x0 : FVec Ideal S512x512 .f32) (x1 : FVec Ideal S512x2048 .f32) (x2 : FVec Ideal S1x2048 .f32) (r : Fin 512) (l : Fin 2048) :
    pre1 x0 x1 x2 (ix2 r l) = affine x1 x2 (fun p : Fin 512 => x0 (ix2 r p)) l :=
  layer_apply plain1 x0 x1 x2 _ _ _ r l

/-- The second layer's block at (r, k): the affine layer on row r of the first activations, at k. -/
theorem pre2_apply (a : FVec Ideal S512x2048 .f32) (x3 : FVec Ideal S2048x768 .f32) (x4 : FVec Ideal S1x768 .f32) (r : Fin 512) (k : Fin 768) :
    pre2 a x3 x4 (ix2 r k) = affine x3 x4 (fun l : Fin 2048 => a (ix2 r l)) k :=
  layer_apply plain2 a x3 x4 _ _ _ r k

/-- The third layer's block at (r, j): the affine layer on row r of the second activations, at j. -/
theorem pre3_apply (a : FVec Ideal S512x768 .f32) (x5 : FVec Ideal S768x512 .f32) (x6 : FVec Ideal S1x512 .f32) (r : Fin 512) (j : Fin 512) :
    pre3 a x5 x6 (ix2 r j) = affine x5 x6 (fun k : Fin 768 => a (ix2 r k)) j :=
  layer_apply plain3 a x5 x6 _ _ _ r j

/-- The stored block: entry `y` is the fused row of the block's input row `y 0`, at `y 1`. -/
theorem pay_apply (x0 : Vec Ideal S512x512 .f32) (x1 : Vec Ideal S512x2048 .f32) (x2 : Vec Ideal S1x2048 .f32)
    (x3 : Vec Ideal S2048x768 .f32) (x4 : Vec Ideal S1x768 .f32) (x5 : Vec Ideal S768x512 .f32) (x6 : Vec Ideal S1x512 .f32)
    (y : S512x512.Idx) :
    k0_pay1 (F := Ideal) (k0_pay2 (F := Ideal) x0 x1 x2 x3 x4 x5) x6 y
      = fusedRow x1 x2 x3 x4 x5 x6 (fun p : Fin 512 => x0 (ix2 (y 0) p)) (y 1) := by
  obtain ⟨r, j, rfl⟩ : ∃ (r : Fin 512) (j : Fin 512), y = ix2 r j := ⟨y 0, y 1, eq_ix2 y⟩
  show k0_pay1 (F := Ideal) (k0_pay2 (F := Ideal) x0 x1 x2 x3 x4 x5) x6 (ix2 r j)
      = fusedRow x1 x2 x3 x4 x5 x6 (fun p : Fin 512 => x0 (ix2 r p)) j
  rw [pay_eq, pre3_apply]
  have h1 : ∀ l : Fin 2048, actA (pre1 x0 x1 x2) (ix2 r l)
      = if l.val < 1024 then relu (affine x1 x2 (fun p : Fin 512 => x0 (ix2 r p)) l)
        else softplus (affine x1 x2 (fun p : Fin 512 => x0 (ix2 r p)) l) := fun l => by
    rw [actA_apply, pre1_apply]
  have h2 : ∀ k : Fin 768, actB (pre2 (actA (pre1 x0 x1 x2)) x3 x4) (ix2 r k)
      = if k.val < 512 then relu (affine x3 x4 (fun l : Fin 2048 =>
            if l.val < 1024 then relu (affine x1 x2 (fun p : Fin 512 => x0 (ix2 r p)) l)
            else softplus (affine x1 x2 (fun p : Fin 512 => x0 (ix2 r p)) l)) k)
        else affine x3 x4 (fun l : Fin 2048 =>
            if l.val < 1024 then relu (affine x1 x2 (fun p : Fin 512 => x0 (ix2 r p)) l)
            else softplus (affine x1 x2 (fun p : Fin 512 => x0 (ix2 r p)) l)) k := fun k => by
    rw [actB_apply, pre2_apply, funext h1]
  rw [funext h2]
  rfl

end Cert.ReferenceIdeal.Payload

end
-- ==== Proof.RefHostCat.lean ====
/-
  The arrays joined side by side before the launch, read entry by entry.

  Four of the arrays the fused kernel is launched on are two arrays joined along the column axis: the first piece's
  columns come first, the second piece's follow, shifted by the first piece's width. The last one joins a bias row
  with a row of zeros.
-/
import proofs.«108907_g2000702497057735_pallasbulk_324_2_alg».proof.Proof.Gen.ReferenceIdeal.Frame
import Idealize.ShloMosaic.Lib.StableHlo.Run
import Idealize.ShloMosaic.Lib.Pipeline.Value
import Idealize.ShloMosaic.Lib.ValueLayout
import Idealize.ShloMosaic.PureOps.Ideal.Laws

noncomputable section

namespace Cert.ReferenceIdeal.HostCat

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ) (c : Dev nD)

/-- An argument array as launched. -/
abbrev arg (b : Ref sig .tc) : Buf (Elt Ideal) ((c : Thread nD τ).loc b) := m ((c : Thread nD τ).loc b)

/-! ## Each joined array as the join of its pieces

Each of the four arrays is written once, by one joining operation on arrays no operation before the launch writes;
every other operation writes some other array and leaves it as it is. -/

/-- The weight matrix: the two `512 × 1024` matrices side by side. -/
theorem v0_eq : (V (F := Ideal) m c main_v0 : S512x2048.Idx → EReal) =
    concatenate S512x2048 1 [⟨S512x1024, arg m c main_arg1⟩, ⟨S512x1024, arg m c main_arg7⟩]
      concatenates_S512x1024_S512x1024_S512x2048_d1 := by
  show StableHlo.after hostOps0 (fun b => m (c, b)) (Proc.devRef .tc main_v0) = _
  after_results

/-- The first bias row: the two `1 × 1024` rows side by side. -/
theorem v1_eq : (V (F := Ideal) m c main_v1 : S1x2048.Idx → EReal) =
    concatenate S1x2048 1 [⟨S1x1024, arg m c main_arg2⟩, ⟨S1x1024, arg m c main_arg8⟩]
      concatenates_S1x1024_S1x1024_S1x2048_d1 := by
  show StableHlo.after hostOps0 (fun b => m (c, b)) (Proc.devRef .tc main_v1) = _
  after_results

/-- The second bias row: a `1 × 512` row followed by a `1 × 256` row. -/
theorem v11_eq : (V (F := Ideal) m c main_v11 : S1x768.Idx → EReal) =
    concatenate S1x768 1 [⟨S1x512, arg m c main_arg4⟩, ⟨S1x256, arg m c main_arg10⟩]
      concatenates_S1x512_S1x256_S1x768_d1 := by
  show StableHlo.after hostOps0 (fun b => m (c, b)) (Proc.devRef .tc main_v11) = _
  after_results

/-- The third bias row: a `1 × 256` row followed by `256` copies of the constant whose bits are all zero. -/
theorem v28_eq : (V (F := Ideal) m c main_v28 : S1x512.Idx → EReal) =
    concatenate S1x512 1 [⟨S1x256, arg m c main_arg6⟩,
        ⟨S1x256, broadcastInDim S1x256 ![] bcast_S_S1x256 (constant (F := Ideal) S_ .f32 0x00000000#32)⟩]
      concatenates_S1x256_S1x256_S1x512_d1 := by
  show StableHlo.after hostOps0 (fun b => m (c, b)) (Proc.devRef .tc main_v28) = _
  after_results

/-! ## The joined arrays entry by entry

An entry whose column lies in the first piece is that piece's entry at the same place; an entry whose column lies
past the first piece's width is the second piece's entry at the column less that width. -/

theorem w1_l (p : Fin 512) (l : Fin 1024) : V (F := Ideal) m c main_v0 (ix2 p ⟨l.val, by omega⟩) = arg m c main_arg1 (ix2 p l) := by
  refine (congrFun (v0_eq m c) _).trans ?_
  exact concatenate_pair_apply_left (t := S512x2048) (s₁ := S512x1024) (s₂ := S512x1024) 1 (arg m c main_arg1) (arg m c main_arg7) concatenates_S512x1024_S512x1024_S512x2048_d1
    (ix2 p ⟨l.val, by omega⟩) rfl (ix2 p l) (by intro b; match b with | ⟨0, _⟩ => rfl | ⟨1, _⟩ => rfl)
theorem w1_r (p : Fin 512) (l : Fin 1024) : V (F := Ideal) m c main_v0 (ix2 p ⟨l.val + 1024, by omega⟩) = arg m c main_arg7 (ix2 p l) := by
  refine (congrFun (v0_eq m c) _).trans ?_
  exact concatenate_pair_apply_right (t := S512x2048) (s₁ := S512x1024) (s₂ := S512x1024) 1 (arg m c main_arg1) (arg m c main_arg7) concatenates_S512x1024_S512x1024_S512x2048_d1
    (ix2 p ⟨l.val + 1024, by omega⟩) rfl rfl (ix2 p l)
    (by intro b hb; match b with | ⟨0, _⟩ => rfl | ⟨1, _⟩ => exact absurd rfl hb) rfl
theorem b1_l (l : Fin 1024) : V (F := Ideal) m c main_v1 (ix2 0 ⟨l.val, by omega⟩) = arg m c main_arg2 (ix2 0 l) := by
  refine (congrFun (v1_eq m c) _).trans ?_
  exact concatenate_pair_apply_left (t := S1x2048) (s₁ := S1x1024) (s₂ := S1x1024) 1 (arg m c main_arg2) (arg m c main_arg8) concatenates_S1x1024_S1x1024_S1x2048_d1
    (ix2 0 ⟨l.val, by omega⟩) rfl (ix2 0 l) (by intro b; match b with | ⟨0, _⟩ => rfl | ⟨1, _⟩ => rfl)
theorem b1_r (l : Fin 1024) : V (F := Ideal) m c main_v1 (ix2 0 ⟨l.val + 1024, by omega⟩) = arg m c main_arg8 (ix2 0 l) := by
  refine (congrFun (v1_eq m c) _).trans ?_
  exact concatenate_pair_apply_right (t := S1x2048) (s₁ := S1x1024) (s₂ := S1x1024) 1 (arg m c main_arg2) (arg m c main_arg8) concatenates_S1x1024_S1x1024_S1x2048_d1
    (ix2 0 ⟨l.val + 1024, by omega⟩) rfl rfl (ix2 0 l)
    (by intro b hb; match b with | ⟨0, _⟩ => rfl | ⟨1, _⟩ => exact absurd rfl hb) rfl
theorem b2_l (k : Fin 512) : V (F := Ideal) m c main_v11 (ix2 0 ⟨k.val, by omega⟩) = arg m c main_arg4 (ix2 0 k) := by
  refine (congrFun (v11_eq m c) _).trans ?_
  exact concatenate_pair_apply_left (t := S1x768) (s₁ := S1x512) (s₂ := S1x256) 1 (arg m c main_arg4) (arg m c main_arg10) concatenates_S1x512_S1x256_S1x768_d1
    (ix2 0 ⟨k.val, by omega⟩) rfl (ix2 0 k) (by intro b; match b with | ⟨0, _⟩ => rfl | ⟨1, _⟩ => rfl)
theorem b2_r (k : Fin 256) : V (F := Ideal) m c main_v11 (ix2 0 ⟨k.val + 512, by omega⟩) = arg m c main_arg10 (ix2 0 k) := by
  refine (congrFun (v11_eq m c) _).trans ?_
  exact concatenate_pair_apply_right (t := S1x768) (s₁ := S1x512) (s₂ := S1x256) 1 (arg m c main_arg4) (arg m c main_arg10) concatenates_S1x512_S1x256_S1x768_d1
    (ix2 0 ⟨k.val + 512, by omega⟩) rfl rfl (ix2 0 k)
    (by intro b hb; match b with | ⟨0, _⟩ => rfl | ⟨1, _⟩ => exact absurd rfl hb) rfl
theorem b3_l (j : Fin 256) : V (F := Ideal) m c main_v28 (ix2 0 ⟨j.val, by omega⟩) = arg m c main_arg6 (ix2 0 j) := by
  refine (congrFun (v28_eq m c) _).trans ?_
  exact concatenate_pair_apply_left (t := S1x512) (s₁ := S1x256) (s₂ := S1x256) 1 (arg m c main_arg6)
    (broadcastInDim S1x256 ![] bcast_S_S1x256 (constant (F := Ideal) S_ .f32 0x00000000#32)) concatenates_S1x256_S1x256_S1x512_d1
    (ix2 0 ⟨j.val, by omega⟩) rfl (ix2 0 j) (by intro b; match b with | ⟨0, _⟩ => rfl | ⟨1, _⟩ => rfl)
theorem b3_r (j : Fin 256) : V (F := Ideal) m c main_v28 (ix2 0 ⟨j.val + 256, by omega⟩) = (0 : EReal) := by
  refine (congrFun (v28_eq m c) _).trans ?_
  refine (concatenate_pair_apply_right (t := S1x512) (s₁ := S1x256) (s₂ := S1x256) 1 (arg m c main_arg6)
    (broadcastInDim S1x256 ![] bcast_S_S1x256 (constant (F := Ideal) S_ .f32 0x00000000#32)) concatenates_S1x256_S1x256_S1x512_d1
    (ix2 0 ⟨j.val + 256, by omega⟩) rfl rfl (ix2 0 j)
    (by intro b hb; match b with | ⟨0, _⟩ => rfl | ⟨1, _⟩ => exact absurd rfl hb) rfl).trans ?_
  exact Ideal.ofBits_zero_f32

end Cert.ReferenceIdeal.HostCat

end
-- ==== Proof.LibScatterSet.lean ====
/-
  SET-SCATTER: THE LAST WRITER WINS (general lemmas about the host scatter whose body returns the update; they
  mention no program).

  The host scatter is a left fold over the update indices in row-major order; with the body `fun _ b => b` each
  landing update overwrites the element it lands on. So an element no update lands on keeps the operand's value,
  and an element some update lands on holds the LAST landing update, in row-major order.
-/
import Idealize.ShloMosaic.PureOps.Ideal
import Idealize.ShloMosaic.Lib.ValueIdx
noncomputable section
namespace Cert.Lib.ScatterSet
open Idealize.ShloMosaic Idealize.ShloMosaic.ValueIdx

/-! ## The fold, abstractly

  A left fold over a list of update positions whose step, read at one element `i`, either keeps the value (the
  position does not land on `i`) or overwrites it with the position's update (it lands on `i`). -/

/-- No position of the list lands on `i`: the fold leaves the start value at `i`. -/
theorem fold_keep {I J α : Type} (ρ : J → Option I) (i : I) (step : (I → α) → J → (I → α))
    (hne : ∀ r j, ρ j ≠ some i → step r j i = r i) :
    ∀ (l : List J) (x : I → α), (∀ j ∈ l, ρ j ≠ some i) → l.foldl step x i = x i := by
  intro l
  induction l with
  | nil => intro x _; rfl
  | cons a t ih =>
    intro x h
    rw [List.foldl_cons, ih (step x a) (fun j hj => h j (List.mem_cons_of_mem _ hj)),
      hne x a (h a List.mem_cons_self)]

/-- In a strictly increasing list, position `j` lands on `i` and no later position does: the fold holds `j`'s update
    at `i`. -/
theorem fold_last {I J α : Type} [LT J] (ρ : J → Option I) (i : I) (upd : J → α) (step : (I → α) → J → (I → α))
    (hne : ∀ r j, ρ j ≠ some i → step r j i = r i) (heq : ∀ r j, ρ j = some i → step r j i = upd j)
    (j : J) (hj : ρ j = some i) :
    ∀ (l : List J) (x : I → α), l.Pairwise (· < ·) → j ∈ l → (∀ j' ∈ l, j < j' → ρ j' ≠ some i) →
      l.foldl step x i = upd j := by
  intro l
  induction l with
  | nil => intro x _ hm; exact absurd hm List.not_mem_nil
  | cons a t ih =>
    intro x hp hm hl
    rw [List.foldl_cons]
    rw [List.pairwise_cons] at hp
    rcases List.mem_cons.mp hm with hja | hm'
    · subst hja
      rw [fold_keep ρ i step hne t _ (fun j' hj' => hl j' (List.mem_cons_of_mem _ hj') (hp.1 j' hj')), heq x j hj]
    · exact ih (step x a) hp.2 hm' (fun j' hj' => hl j' (List.mem_cons_of_mem _ hj'))

/-! ## The host scatter whose body returns the update -/

section Scatter
variable {s si u : Shape} {α : Type} {w : Nat} (d : ScatterDims s si u) (x : s.Idx → α) (idx : IVec si w)
  (upd : u.Idx → α) (i : s.Idx)

/-- A step whose position does not land on `i` keeps the value at `i`. -/
theorem step_keep (r : s.Idx → α) (n : Fin u.numel) (hn : d.resultIdx? (u.rowMajor.symm n) idx ≠ some i) :
    (match d.resultIdx? (u.rowMajor.symm n) idx with
      | some i0 => fun i' => if i' = i0 then (fun (_ : α) (b : α) => b) (r i0) (upd (u.rowMajor.symm n)) else r i'
      | none => r) i = r i := by
  generalize d.resultIdx? (u.rowMajor.symm n) idx = o at hn
  cases o with
  | none => rfl
  | some i0 =>
    show (if i = i0 then _ else r i) = r i
    rw [if_neg]
    intro hi
    apply hn
    rw [hi]

/-- A step whose position lands on `i` writes its update at `i`. -/
theorem step_write (r : s.Idx → α) (n : Fin u.numel) (hn : d.resultIdx? (u.rowMajor.symm n) idx = some i) :
    (match d.resultIdx? (u.rowMajor.symm n) idx with
      | some i0 => fun i' => if i' = i0 then (fun (_ : α) (b : α) => b) (r i0) (upd (u.rowMajor.symm n)) else r i'
      | none => r) i = upd (u.rowMajor.symm n) := by
  rw [hn]
  show (if i = i then _ else r i) = _
  rw [if_pos rfl]

/-- No update lands on `i`: the operand's value stays. -/
theorem scatter_set_of_none (h : ∀ j : u.Idx, d.resultIdx? j idx ≠ some i) :
    Host.scatter d (fun _ b => b) x idx upd i = x i := by
  unfold Host.scatter
  exact fold_keep (fun n => d.resultIdx? (u.rowMajor.symm n) idx) i _
    (fun r n hn => step_keep d idx upd i r n hn) _ x (fun n _ => h _)

/-- Update `j` lands on `i` and no update later in row-major order does: the value is update `j`. -/
theorem scatter_set_of_last (j : u.Idx) (hj : d.resultIdx? j idx = some i)
    (hl : ∀ j' : u.Idx, u.rowMajor j < u.rowMajor j' → d.resultIdx? j' idx ≠ some i) :
    Host.scatter d (fun _ b => b) x idx upd i = upd j := by
  unfold Host.scatter
  have h := fold_last (fun n => d.resultIdx? (u.rowMajor.symm n) idx) i (fun n => upd (u.rowMajor.symm n)) _
    (fun r n hn => step_keep d idx upd i r n hn) (fun r n hn => step_write d idx upd i r n hn)
    (u.rowMajor j) (by show d.resultIdx? (u.rowMajor.symm (u.rowMajor j)) idx = some i; rw [Equiv.symm_apply_apply]; exact hj)
    (List.finRange u.numel) x (List.pairwise_lt_finRange _) (List.mem_finRange _)
    (fun n _ hlt => hl (u.rowMajor.symm n) (by rw [Equiv.apply_symm_apply]; exact hlt))
  refine Eq.trans h ?_
  show upd (u.rowMajor.symm (u.rowMajor j)) = upd j
  rw [Equiv.symm_apply_apply]
end Scatter

end Cert.Lib.ScatterSet
end
-- ==== Proof.LibWindowScatter.lean ====
/-
  A RECTANGLE WRITTEN INTO A MATRIX (general lemmas about the host scatter that writes one window; they mention no
  program).

  Take a scatter of a [U0, U1] update into an [N0, N1] operand whose scatter indices are ONE start vector (r0, c0):
  both update axes are window axes, no operand axis is inserted, start component a goes to operand axis a. Update
  entry (p, q) lands on operand entry (r0 + p, c0 + q), so distinct update entries land on distinct operand entries.
  With the body that returns the update, and the window inside the operand, the result holds the update inside the
  rectangle [r0, r0 + U0) × [c0, c0 + U1) and the operand outside it.
-/
import Idealize.ShloMosaic.PureOps.Ideal
import Idealize.ShloMosaic.Lib.ValueIdx
import proofs.«108907_g2000702497057735_pallasbulk_324_2_alg».proof.Proof.LibScatterSet
noncomputable section
namespace Cert.Lib.WindowScatter
open Idealize.ShloMosaic Idealize.ShloMosaic.ValueIdx Cert.Lib.ScatterSet

variable {N0 N1 U0 U1 : Nat} (d : ScatterDims (⟨2, ![N0, N1]⟩ : Shape) (⟨1, ![2]⟩ : Shape) (⟨2, ![U0, U1]⟩ : Shape))

/-- The dimension numbers are those of one window written at one start vector. -/
structure Window : Prop where
  uw : d.updateWindowDims = [0, 1]
  iw : d.insertedWindowDims = []
  so : d.scatterDimsToOperandDims = [0, 1]
  iv : d.indexVectorDim = 0

variable {d}

/-! ## The start and the window coordinate of an update entry

  The start vector is axis 0 of the scatter indices, so component `a` of the start is read at the scatter index whose
  one coordinate is `a`, whatever the update entry. No operand axis is inserted, so the operand's kept axes are
  0, 1 and window axis `a` of the update goes to operand axis `a`. -/

/-- The start on operand axis 0 is component 0 of the start vector. -/
theorem start_zero (h : Window d) {w : Nat} (idx : IVec (⟨1, ![2]⟩ : Shape) w) (j : (⟨2, ![U0, U1]⟩ : Shape).Idx) :
    d.start j idx 0 = (idx (ix1 0)).toInt := by
  obtain ⟨uw, iw, so, iv, wf⟩ := d
  obtain ⟨h1, h2, h3, h4⟩ := h
  dsimp only at h1 h2 h3 h4
  subst h1 h2 h3 h4
  unfold ScatterDims.start
  simp
  congr 2
  funext b
  match b with
  | ⟨0, _⟩ =>
    unfold ScatterDims.siIdx
    simp
    rfl

/-- The start on operand axis 1 is component 1 of the start vector. -/
theorem start_one (h : Window d) {w : Nat} (idx : IVec (⟨1, ![2]⟩ : Shape) w) (j : (⟨2, ![U0, U1]⟩ : Shape).Idx) :
    d.start j idx 1 = (idx (ix1 1)).toInt := by
  obtain ⟨uw, iw, so, iv, wf⟩ := d
  obtain ⟨h1, h2, h3, h4⟩ := h
  dsimp only at h1 h2 h3 h4
  subst h1 h2 h3 h4
  unfold ScatterDims.start
  simp
  congr 2
  funext b
  match b with
  | ⟨0, _⟩ =>
    unfold ScatterDims.siIdx
    simp
    rfl

/-- With no inserted axis, operand axis 0 is the first kept axis. -/
theorem idxOf_kept_zero :
    List.idxOf (0 : Fin 2) (List.filter (fun x : Fin 2 => decide (x ∉ ([] : List (Fin 2)))) (List.finRange 2)) = 0 := by
  decide

/-- With no inserted axis, operand axis 1 is the second kept axis. -/
theorem idxOf_kept_one :
    List.idxOf (1 : Fin 2) (List.filter (fun x : Fin 2 => decide (x ∉ ([] : List (Fin 2)))) (List.finRange 2)) = 1 := by
  decide

/-- The window coordinate on operand axis 0 is the update entry's coordinate 0. -/
theorem window_zero (h : Window d) (j : (⟨2, ![U0, U1]⟩ : Shape).Idx) :
    d.window j 0 = (j 0).val := by
  obtain ⟨uw, iw, so, iv, wf⟩ := d
  obtain ⟨h1, h2, h3, h4⟩ := h
  dsimp only at h1 h2 h3 h4
  subst h1 h2 h3 h4
  unfold ScatterDims.window
  simp [ScatterDims.sKept, Shape.kept]
  have key : ∀ (k : Nat) (hk : k < ([0, 1] : List (Fin 2)).length), k = 0 →
      (j (([0, 1] : List (Fin 2))[k]'hk)).val = (j 0).val := by
    intro k hk e; subst e; rfl
  exact key _ _ idxOf_kept_zero

/-- The window coordinate on operand axis 1 is the update entry's coordinate 1. -/
theorem window_one (h : Window d) (j : (⟨2, ![U0, U1]⟩ : Shape).Idx) :
    d.window j 1 = (j 1).val := by
  obtain ⟨uw, iw, so, iv, wf⟩ := d
  obtain ⟨h1, h2, h3, h4⟩ := h
  dsimp only at h1 h2 h3 h4
  subst h1 h2 h3 h4
  unfold ScatterDims.window
  simp [ScatterDims.sKept, Shape.kept]
  have key : ∀ (k : Nat) (hk : k < ([0, 1] : List (Fin 2)).length), k = 1 →
      (j (([0, 1] : List (Fin 2))[k]'hk)).val = (j 1).val := by
    intro k hk e; subst e; rfl
  exact key _ _ idxOf_kept_one

/-! ## Where an update entry lands -/

/-- Update entry `j` lands on operand entry `i` exactly when `i = (r0 + j 0, c0 + j 1)`: start plus window coordinate on
    both axes; an operand entry has its coordinates inside the operand, so the landing is not dropped. -/
theorem resultIdx_iff (h : Window d) {w : Nat} (idx : IVec (⟨1, ![2]⟩ : Shape) w) (r0 c0 : Nat)
    (h0 : (idx (ix1 0)).toInt = (r0 : Int)) (h1 : (idx (ix1 1)).toInt = (c0 : Int))
    (j : (⟨2, ![U0, U1]⟩ : Shape).Idx) (i : (⟨2, ![N0, N1]⟩ : Shape).Idx) :
    d.resultIdx? j idx = some i ↔ (i 0).val = r0 + (j 0).val ∧ (i 1).val = c0 + (j 1).val := by
  have s0 : d.start j idx 0 + (d.window j 0 : Int) = ((r0 + (j 0).val : Nat) : Int) := by
    rw [start_zero h, window_zero h, h0]; omega
  have s1 : d.start j idx 1 + (d.window j 1 : Int) = ((c0 + (j 1).val : Nat) : Int) := by
    rw [start_one h, window_one h, h1]; omega
  unfold ScatterDims.resultIdx?
  constructor
  · intro hres
    split at hres
    · have e := Option.some.inj hres
      subst e
      constructor
      · show (d.start j idx 0 + (d.window j 0 : Int)).toNat = _
        rw [s0]; exact Int.toNat_natCast _
      · show (d.start j idx 1 + (d.window j 1 : Int)).toNat = _
        rw [s1]; exact Int.toNat_natCast _
    · cases hres
  · rintro ⟨e0, e1⟩
    have hi0 : (i 0).val < N0 := (i 0).isLt
    have hi1 : (i 1).val < N1 := (i 1).isLt
    have hb : ∀ a, 0 ≤ d.start j idx a + (d.window j a : Int) ∧
        d.start j idx a + (d.window j a : Int) < ((⟨2, ![N0, N1]⟩ : Shape).size a : Int) := by
      refine Fin.forall_fin_two.2 ⟨?_, ?_⟩
      · rw [s0]; show _ ∧ _ < ((N0 : Nat) : Int); omega
      · rw [s1]; show _ ∧ _ < ((N1 : Nat) : Int); omega
    rw [dif_pos hb]
    congr 1
    funext a
    revert a
    refine Fin.forall_fin_two.2 ⟨?_, ?_⟩
    · apply Fin.ext
      show (d.start j idx 0 + (d.window j 0 : Int)).toNat = (i 0).val
      rw [s0, Int.toNat_natCast, e0]
    · apply Fin.ext
      show (d.start j idx 1 + (d.window j 1 : Int)).toNat = (i 1).val
      rw [s1, Int.toNat_natCast, e1]

/-! ## The window written into the operand -/

/-- Inside the rectangle the result is the update. -/
theorem scatter_window_inside (h : Window d) {α : Type} {w : Nat} (x : (⟨2, ![N0, N1]⟩ : Shape).Idx → α)
    (idx : IVec (⟨1, ![2]⟩ : Shape) w) (upd : (⟨2, ![U0, U1]⟩ : Shape).Idx → α) (r0 c0 : Nat)
    (h0 : (idx (ix1 0)).toInt = (r0 : Int)) (h1 : (idx (ix1 1)).toInt = (c0 : Int))
    (hfit0 : r0 + U0 ≤ N0) (hfit1 : c0 + U1 ≤ N1) (p : Fin U0) (q : Fin U1) :
    Host.scatter d (fun _ b => b) x idx upd (ix2 ⟨r0 + p.val, by omega⟩ ⟨c0 + q.val, by omega⟩) = upd (ix2 p q) := by
  refine scatter_set_of_last d x idx upd _ (ix2 p q) ?_ ?_
  · -- update entry (p, q) lands on (r0 + p, c0 + q)
    exact (resultIdx_iff h idx r0 c0 h0 h1 _ _).2 ⟨rfl, rfl⟩
  · -- an update entry landing on (r0 + p, c0 + q) is (p, q) itself, so it is not later in row-major order
    intro j' hlt hland
    have e := (resultIdx_iff h idx r0 c0 h0 h1 j' _).1 hland
    have e0 : r0 + p.val = r0 + (j' 0).val := e.1
    have e1 : c0 + q.val = c0 + (j' 1).val := e.2
    rw [Fin.lt_def, Shape.rowMajor_val_two, Shape.rowMajor_val_two] at hlt
    change p.val * U1 + q.val < (j' 0).val * U1 + (j' 1).val at hlt
    rw [show (j' 0).val = p.val by omega, show (j' 1).val = q.val by omega] at hlt
    exact absurd hlt (lt_irrefl _)

/-- Outside the rectangle the result is the operand. -/
theorem scatter_window_outside (h : Window d) {α : Type} {w : Nat} (x : (⟨2, ![N0, N1]⟩ : Shape).Idx → α)
    (idx : IVec (⟨1, ![2]⟩ : Shape) w) (upd : (⟨2, ![U0, U1]⟩ : Shape).Idx → α) (r0 c0 : Nat)
    (h0 : (idx (ix1 0)).toInt = (r0 : Int)) (h1 : (idx (ix1 1)).toInt = (c0 : Int))
    (i : Fin N0) (j : Fin N1)
    (hout : ¬ (r0 ≤ i.val ∧ i.val < r0 + U0 ∧ c0 ≤ j.val ∧ j.val < c0 + U1)) :
    Host.scatter d (fun _ b => b) x idx upd (ix2 i j) = x (ix2 i j) := by
  refine scatter_set_of_none d x idx upd _ ?_
  -- an update entry landing on (i, j) would put (i, j) inside the rectangle
  intro j' hland
  have e := (resultIdx_iff h idx r0 c0 h0 h1 j' _).1 hland
  have e0 : i.val = r0 + (j' 0).val := e.1
  have e1 : j.val = c0 + (j' 1).val := e.2
  have b0 : (j' 0).val < U0 := (j' 0).isLt
  have b1 : (j' 1).val < U1 := (j' 1).isLt
  exact hout (by omega)

end Cert.Lib.WindowScatter
end
-- ==== Proof.RefHostScatter.lean ====
/-
  The two block-diagonal weight arrays built before the launch, read entry by entry.

  Each is an array of zeros into which two rectangles are written, the second starting where the first one's
  opposite corner ends: the top-left block and the bottom-right block hold the written rectangles, the other two
  blocks stay zero. The rectangle written bottom right in the last array is the identity: the comparison of a row
  counter with a column counter, turned into the numbers one and zero.
-/
import proofs.«108907_g2000702497057735_pallasbulk_324_2_alg».proof.Proof.Gen.ReferenceIdeal.Frame
import proofs.«108907_g2000702497057735_pallasbulk_324_2_alg».proof.Proof.LibWindowScatter
import Idealize.ShloMosaic.Lib.StableHlo.Run
import Idealize.ShloMosaic.Lib.Pipeline.Value
import Idealize.ShloMosaic.Lib.ValueLayout
import Idealize.ShloMosaic.PureOps.Ideal.Laws

noncomputable section

namespace Cert.ReferenceIdeal.HostScatter

open Idealize.ShloMosaic Idealize.ShloMosaic.TcCoe Idealize.ShloMosaic.ValueIdx Idealize.SL.Sem
open Idealize.ShloMosaic.StableHlo
open Cert.ReferenceIdeal Cert.ReferenceIdeal.Gen

variable (m : (ℓ : Loc nD τ sig) → Buf (Elt Ideal) ℓ) (c : Dev nD)

/-- An argument array as launched. -/
abbrev arg (b : Ref sig .tc) : Buf (Elt Ideal) ((c : Thread nD τ).loc b) := m ((c : Thread nD τ).loc b)

/-! ## The pieces: start vectors, the zeros, the identity rectangle -/

/-- The start vector of a written rectangle: two one-entry splats joined. Its first entry is the first splat's word. -/
theorem start_fst (a b : BitVec 32) :
    (concatenate S2 0 [⟨S1, broadcastInDim S1 ![] bcast_S_S1 (constantI S_ 32 a)⟩,
      ⟨S1, broadcastInDim S1 ![] bcast_S_S1 (constantI S_ 32 b)⟩] concatenates_S1_S1_S2_d0 : IVec S2 32) (ix1 0) = a := by
  rw [concatenate_pair_apply_left (0 : Fin S2.rank) _ _ concatenates_S1_S1_S2_d0 (ix1 0) rfl (ix1 0)
    (by intro b; match b with | ⟨0, _⟩ => rfl)]
  rfl

/-- Its second entry is the second splat's word. -/
theorem start_snd (a b : BitVec 32) :
    (concatenate S2 0 [⟨S1, broadcastInDim S1 ![] bcast_S_S1 (constantI S_ 32 a)⟩,
      ⟨S1, broadcastInDim S1 ![] bcast_S_S1 (constantI S_ 32 b)⟩] concatenates_S1_S1_S2_d0 : IVec S2 32) (ix1 1) = b := by
  rw [concatenate_pair_apply_right (0 : Fin S2.rank) _ _ concatenates_S1_S1_S2_d0 (ix1 1) rfl rfl (ix1 0)
    (by intro b hb; match b, hb with | ⟨0, _⟩, hb => exact absurd rfl hb) (by rfl)]
  rfl

/-- Two rank-two indices with the same coordinates are the same index. -/
theorem ix2_congr {n0 n1 : Nat} {a a' : Fin n0} {b b' : Fin n1} (ha : a.val = a'.val) (hb : b.val = b'.val) :
    (ix2 a b : (⟨2, ![n0, n1]⟩ : Shape).Idx) = ix2 a' b' := by
  obtain rfl := Fin.ext ha; obtain rfl := Fin.ext hb; rfl

/-- The array of zeros holds the number zero at every entry. -/
theorem zeros_apply {t : Shape} (h : S_.BroadcastsInDim t (![] : Fin 0 → Fin t.rank)) (j : t.Idx) :
    (broadcastInDim t ![] h (constant (F := Ideal) S_ .f32 0x00000000#32) : t.Idx → EReal) j = 0 := by
  show Ideal.ofBits .f32 0x00000000#32 = 0
  exact Ideal.ofBits_zero_f32

/-- A row counter below 256 equals a column counter below 256, as 32-bit words, exactly when the numbers are equal. -/
theorem counters_eq (k j : Fin 256) :
    (BitVec.ofNat 32 k.val + 0#32 == BitVec.ofNat 32 j.val) = decide (k = j) := by
  rw [BitVec.add_zero]
  by_cases h : k = j
  · subst h; simp
  · have hne : BitVec.ofNat 32 k.val ≠ BitVec.ofNat 32 j.val := by
      intro e
      have e' := congrArg BitVec.toNat e
      simp only [BitVec.toNat_ofNat] at e'
      have hk := k.isLt; have hj := j.isLt
      rw [Nat.mod_eq_of_lt (by omega), Nat.mod_eq_of_lt (by omega)] at e'
      exact h (Fin.ext e')
    simp [hne, h]

/-- The identity rectangle: the comparison of the row counter with the column counter, as a number, is one on the
    diagonal and zero off it. -/
theorem eye_apply (k j : Fin 256) :
    (uitofp (F := Ideal) .f32 (cmpi .eq (addi (iotaInDim S256x256 32 0)
        (broadcastInDim S256x256 ![] bcast_S_S256x256 (constantI S_ 32 0#32))) (iotaInDim S256x256 32 1))
      : S256x256.Idx → EReal) (ix2 k j) = (if k = j then (1 : EReal) else 0) := by
  show (((BitVec.ofBool (BitVec.ofNat 32 k.val + 0#32 == BitVec.ofNat 32 j.val)).toNat : ℝ) : EReal) = _
  rw [counters_eq]
  by_cases h : k = j
  · simp [h]
  · simp [h]

/-! ## The first array: rows 0..1023 × columns 0..511 and rows 1024..2047 × columns 512..767 -/

/-- The first block-diagonal array, as the operations before the launch compose it: zeros, the first rectangle written
    at (0, 0), then the second written at (1024, 512). -/
theorem v10_eq : (V (F := Ideal) m c main_v10 : S2048x768.Idx → EReal) =
    Host.scatter scatter_S2048x768_S2_S1024x256_01_n_01_0 (fun _ b => b)
      (Host.scatter scatter_S2048x768_S2_S1024x512_01_n_01_0 (fun _ b => b)
        (broadcastInDim S2048x768 ![] bcast_S_S2048x768 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (arg m c main_arg3))
      (concatenate S2 0 [⟨S1, broadcastInDim S1 ![] bcast_S_S1 (constantI S_ 32 1024#32)⟩,
          ⟨S1, broadcastInDim S1 ![] bcast_S_S1 (constantI S_ 32 512#32)⟩] concatenates_S1_S1_S2_d0)
      (arg m c main_arg9) := by
  show StableHlo.after hostOps0 (fun b => m (c, b)) (Proc.devRef .tc main_v10) = _
  after_results

theorem w2_ll (l : Fin 1024) (k : Fin 512) : V (F := Ideal) m c main_v10 (ix2 ⟨l.val, by omega⟩ ⟨k.val, by omega⟩) = arg m c main_arg3 (ix2 l k) := by
  rw [v10_eq]
  refine (Cert.Lib.WindowScatter.scatter_window_outside ⟨rfl, rfl, rfl, rfl⟩ _ _ _ 1024 512
      (by rw [start_fst]; rfl) (by rw [start_snd]; rfl) _ _ (by show ¬ (1024 ≤ l.val ∧ _); omega)).trans ?_
  refine (congrArg _ (ix2_congr (Nat.zero_add _).symm (Nat.zero_add _).symm)).trans
    (Cert.Lib.WindowScatter.scatter_window_inside ⟨rfl, rfl, rfl, rfl⟩ _ _ _ 0 0
      (by rw [start_fst]; rfl) (by rw [start_snd]; rfl) (by omega) (by omega) l k)

theorem w2_lr (l : Fin 1024) (k : Fin 256) : V (F := Ideal) m c main_v10 (ix2 ⟨l.val, by omega⟩ ⟨k.val + 512, by omega⟩) = (0 : EReal) := by
  rw [v10_eq]
  refine (Cert.Lib.WindowScatter.scatter_window_outside ⟨rfl, rfl, rfl, rfl⟩ _ _ _ 1024 512
      (by rw [start_fst]; rfl) (by rw [start_snd]; rfl) _ _ (by show ¬ (1024 ≤ l.val ∧ _); omega)).trans ?_
  refine (Cert.Lib.WindowScatter.scatter_window_outside ⟨rfl, rfl, rfl, rfl⟩ _ _ _ 0 0
      (by rw [start_fst]; rfl) (by rw [start_snd]; rfl) _ _
      (by show ¬ (_ ∧ _ ∧ _ ∧ k.val + 512 < 0 + 512); omega)).trans ?_
  exact zeros_apply _ _

theorem w2_rl (l : Fin 1024) (k : Fin 512) : V (F := Ideal) m c main_v10 (ix2 ⟨l.val + 1024, by omega⟩ ⟨k.val, by omega⟩) = (0 : EReal) := by
  rw [v10_eq]
  refine (Cert.Lib.WindowScatter.scatter_window_outside ⟨rfl, rfl, rfl, rfl⟩ _ _ _ 1024 512
      (by rw [start_fst]; rfl) (by rw [start_snd]; rfl) _ _
      (by show ¬ (_ ∧ _ ∧ 512 ≤ k.val ∧ _); omega)).trans ?_
  refine (Cert.Lib.WindowScatter.scatter_window_outside ⟨rfl, rfl, rfl, rfl⟩ _ _ _ 0 0
      (by rw [start_fst]; rfl) (by rw [start_snd]; rfl) _ _
      (by show ¬ (_ ∧ l.val + 1024 < 0 + 1024 ∧ _); omega)).trans ?_
  exact zeros_apply _ _

theorem w2_rr (l : Fin 1024) (k : Fin 256) : V (F := Ideal) m c main_v10 (ix2 ⟨l.val + 1024, by omega⟩ ⟨k.val + 512, by omega⟩) = arg m c main_arg9 (ix2 l k) := by
  rw [v10_eq]
  refine (congrArg _ (ix2_congr (Nat.add_comm _ _) (Nat.add_comm _ _))).trans
    (Cert.Lib.WindowScatter.scatter_window_inside ⟨rfl, rfl, rfl, rfl⟩ _ _ _ 1024 512
      (by rw [start_fst]; rfl) (by rw [start_snd]; rfl) (by omega) (by omega) l k)

/-! ## The second array: rows 0..511 × columns 0..255 and rows 512..767 × columns 256..511 -/

/-- The second block-diagonal array, as the operations before the launch compose it: zeros, the first rectangle written
    at (0, 0), then the identity written at (512, 256). -/
theorem v26_eq : (V (F := Ideal) m c main_v26 : S768x512.Idx → EReal) =
    Host.scatter scatter_S768x512_S2_S256x256_01_n_01_0 (fun _ b => b)
      (Host.scatter scatter_S768x512_S2_S512x256_01_n_01_0 (fun _ b => b)
        (broadcastInDim S768x512 ![] bcast_S_S768x512 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (arg m c main_arg5))
      (concatenate S2 0 [⟨S1, broadcastInDim S1 ![] bcast_S_S1 (constantI S_ 32 512#32)⟩,
          ⟨S1, broadcastInDim S1 ![] bcast_S_S1 (constantI S_ 32 256#32)⟩] concatenates_S1_S1_S2_d0)
      (uitofp (F := Ideal) .f32 (cmpi .eq (addi (iotaInDim S256x256 32 0)
        (broadcastInDim S256x256 ![] bcast_S_S256x256 (constantI S_ 32 0#32))) (iotaInDim S256x256 32 1))) := by
  show StableHlo.after hostOps0 (fun b => m (c, b)) (Proc.devRef .tc main_v26) = _
  after_results

theorem w3_ll (k : Fin 512) (j : Fin 256) : V (F := Ideal) m c main_v26 (ix2 ⟨k.val, by omega⟩ ⟨j.val, by omega⟩) = arg m c main_arg5 (ix2 k j) := by
  rw [v26_eq]
  refine (Cert.Lib.WindowScatter.scatter_window_outside ⟨rfl, rfl, rfl, rfl⟩ _ _ _ 512 256
      (by rw [start_fst]; rfl) (by rw [start_snd]; rfl) _ _ (by show ¬ (512 ≤ k.val ∧ _); omega)).trans ?_
  refine (congrArg _ (ix2_congr (Nat.zero_add _).symm (Nat.zero_add _).symm)).trans
    (Cert.Lib.WindowScatter.scatter_window_inside ⟨rfl, rfl, rfl, rfl⟩ _ _ _ 0 0
      (by rw [start_fst]; rfl) (by rw [start_snd]; rfl) (by omega) (by omega) k j)

theorem w3_lr (k : Fin 512) (j : Fin 256) : V (F := Ideal) m c main_v26 (ix2 ⟨k.val, by omega⟩ ⟨j.val + 256, by omega⟩) = (0 : EReal) := by
  rw [v26_eq]
  refine (Cert.Lib.WindowScatter.scatter_window_outside ⟨rfl, rfl, rfl, rfl⟩ _ _ _ 512 256
      (by rw [start_fst]; rfl) (by rw [start_snd]; rfl) _ _ (by show ¬ (512 ≤ k.val ∧ _); omega)).trans ?_
  refine (Cert.Lib.WindowScatter.scatter_window_outside ⟨rfl, rfl, rfl, rfl⟩ _ _ _ 0 0
      (by rw [start_fst]; rfl) (by rw [start_snd]; rfl) _ _
      (by show ¬ (_ ∧ _ ∧ _ ∧ j.val + 256 < 0 + 256); omega)).trans ?_
  exact zeros_apply _ _

theorem w3_rl (k : Fin 256) (j : Fin 256) : V (F := Ideal) m c main_v26 (ix2 ⟨k.val + 512, by omega⟩ ⟨j.val, by omega⟩) = (0 : EReal) := by
  rw [v26_eq]
  refine (Cert.Lib.WindowScatter.scatter_window_outside ⟨rfl, rfl, rfl, rfl⟩ _ _ _ 512 256
      (by rw [start_fst]; rfl) (by rw [start_snd]; rfl) _ _
      (by show ¬ (_ ∧ _ ∧ 256 ≤ j.val ∧ _); omega)).trans ?_
  refine (Cert.Lib.WindowScatter.scatter_window_outside ⟨rfl, rfl, rfl, rfl⟩ _ _ _ 0 0
      (by rw [start_fst]; rfl) (by rw [start_snd]; rfl) _ _
      (by show ¬ (_ ∧ k.val + 512 < 0 + 512 ∧ _); omega)).trans ?_
  exact zeros_apply _ _

theorem w3_rr (k : Fin 256) (j : Fin 256) : V (F := Ideal) m c main_v26 (ix2 ⟨k.val + 512, by omega⟩ ⟨j.val + 256, by omega⟩) = (if k = j then (1 : EReal) else 0) := by
  rw [v26_eq]
  refine ((congrArg _ (ix2_congr (Nat.add_comm _ _) (Nat.add_comm _ _))).trans
    (Cert.Lib.WindowScatter.scatter_window_inside ⟨rfl, rfl, rfl, rfl⟩ _ _ _ 512 256
      (by rw [start_fst]; rfl) (by rw [start_snd]; rfl) (by omega) (by omega) k j)).trans ?_
  exact eye_apply k j

end Cert.ReferenceIdeal.HostScatter

end
-- ==== Proof.RefHost.lean ====
/-
  The packed weights the fused kernel is launched on: the six arrays the region finds are the packing of the ten
  arguments the fused network expects, entry by entry (joined columns; rectangles written into zeros; the identity).
-/
import proofs.«108907_g2000702497057735_pallasbulk_324_2_alg».proof.Proof.RefHostCat
import proofs.«108907_g2000702497057735_pallasbulk_324_2_alg».proof.Proof.RefHostScatter
import proofs.«108907_g2000702497057735_pallasbulk_324_2_alg».proof.Proof.Fused

noncomputable section

namespace Cert.ReferenceIdeal.HostValue

open Idealize.ShloMosaic Idealize.ShloMosaic.TcCoe Idealize.ShloMosaic.ValueIdx Idealize.SL.Sem
open Cert.ReferenceIdeal Cert.ReferenceIdeal.Gen Cert.Spec Cert.Fused

variable (m : (ℓ : Loc nD τ sig) → Buf (Elt Ideal) ℓ)

/-- The six arrays the region finds are the packing of the ten arguments. -/
theorem packed (c : Dev nD) :
    Packed (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10))
      (V (F := Ideal) m c main_v0) (V (F := Ideal) m c main_v1) (V (F := Ideal) m c main_v10) (V (F := Ideal) m c main_v11)
      (V (F := Ideal) m c main_v26) (V (F := Ideal) m c main_v28) where
  w1_l := HostCat.w1_l m c
  w1_r := HostCat.w1_r m c
  b1_l := HostCat.b1_l m c
  b1_r := HostCat.b1_r m c
  w2_ll := HostScatter.w2_ll m c
  w2_lr := HostScatter.w2_lr m c
  w2_rl := HostScatter.w2_rl m c
  w2_rr := HostScatter.w2_rr m c
  b2_l := HostCat.b2_l m c
  b2_r := HostCat.b2_r m c
  w3_ll := HostScatter.w3_ll m c
  w3_lr := HostScatter.w3_lr m c
  w3_rl := HostScatter.w3_rl m c
  w3_rr := HostScatter.w3_rr m c
  b3_l := HostCat.b3_l m c
  b3_r := HostCat.b3_r m c

end Cert.ReferenceIdeal.HostValue

end
-- ==== Proof.RefValue.lean ====
/-
  The fused kernel's result array after its run, and the two results cut out of it, as whole-array functions of the
  arguments.

  The grid has 32 points; point t stages rows 512 t … 512 t + 511 of the input and writes back the same rows of the
  [16384, 512] result, while every packed weight and bias window is the whole array at every point. What a point
  writes back is, entry by entry, the fused row of the staged input row, so it is the block of ONE whole-array
  function; the 32 blocks tile the rows, so after the run the array is that function. The two results are its first
  256 and its last 256 columns; the packing makes the first the first branch's output rows and the second the second
  branch's.
-/
import proofs.«108907_g2000702497057735_pallasbulk_324_2_alg».proof.Proof.Gen.ReferenceIdeal.Frame
import proofs.«108907_g2000702497057735_pallasbulk_324_2_alg».proof.Proof.RefPayload
import proofs.«108907_g2000702497057735_pallasbulk_324_2_alg».proof.Proof.RefHost
import Idealize.ShloMosaic.Lib.Pipeline.Value
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem
open Idealize.ShloMosaic.ValueIdx Idealize.ShloMosaic.StableHlo Cert.Spec Cert.Fused
open Idealize.ShloMosaic.Pipeline (Dat)

variable (m : (ℓ : Loc nD τ sig) → Buf (Elt Ideal) ℓ) (ρ : Dev nD → PrngReg)

/-- An argument array as launched. -/
abbrev arg (c : Dev nD) (b : Ref sig .tc) : Buf (Elt Ideal) ((c : Thread nD τ).loc b) := m ((c : Thread nD τ).loc b)

/-- The fused result: row r is the fused row of input row r, over the packed weights the region finds. -/
def fusedArr (c : Dev nD) : S16384x512.Idx → EReal := fun i =>
  fusedRow (V m c main_v0) (V m c main_v1) (V m c main_v10) (V m c main_v11) (V m c main_v26) (V m c main_v28)
    (fun p : Fin 512 => arg m c main_arg0 (ix2 (i 0) p)) (i 1)

/-- The first result: row r is the first branch's output row of input row r. -/
def muArr (c : Dev nD) : S16384x256.Idx → EReal :=
  Gmu (arg m c main_arg1) (arg m c main_arg2) (arg m c main_arg3) (arg m c main_arg4) (arg m c main_arg5) (arg m c main_arg6) (arg m c main_arg0)
/-- The second result: row r is the second branch's output row of input row r. -/
def tauArr (c : Dev nD) : S16384x256.Idx → EReal :=
  Gtau (arg m c main_arg7) (arg m c main_arg8) (arg m c main_arg9) (arg m c main_arg10) (arg m c main_arg0)

theorem hz : (![0, 0] : Fin 2 → Nat) = fun _ => 0 := funext fun a => by fin_cases a <;> rfl

/-- The printed index maps over the grid: the input block and the result block sit at block row t, block column 0;
    every packed weight and bias window sits at block (0, 0). -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The staged blocks -/

theorem row_lt (t : Fin cfg0.N) (r : Fin 512) : t.val * 512 + r.val < 16384 := by
  have h1 := t.isLt; have h2 := r.isLt; have h3 : cfg0.N = 32 := N_0; omega

/-- Entry (r, p) of the staged input block is entry (512 t + r, p) of the input. -/
theorem blk_x (c : Dev nD) (t : Fin cfg0.N) (r p : Fin 512) :
    iblk m c 0 t (ix2 r p) = arg m c main_arg0 (ix2 ⟨t.val * 512 + r.val, row_lt t r⟩ p) := by
  obtain ⟨e0, e1, -⟩ := idx_facts t
  show V m c main_arg0 (((cfg0.win 0).blk t).view.emb (ix2 r p)) = _
  rw [V_main_arg0]
  refine congrArg (m ((c : Thread nD τ).loc main_arg0)) (funext fun a => Fin.ext ?_)
  match a with
  | ⟨0, _⟩ => show win0_0.index t (0 : Fin 2) * 512 + 1 * r.val = t.val * 512 + r.val; omega
  | ⟨1, _⟩ => show win0_0.index t (1 : Fin 2) * 512 + 1 * p.val = p.val; omega

/-- Window 1 stages its whole array at every point. -/
theorem blk_1 (c : Dev nD) (t : Fin cfg0.N) : (iblk m c 1 t : S512x2048.Idx → EReal) = V m c main_v0 := by
  have hf := idx_facts t
  have e0 : win0_1.index t (0 : Fin 2) = 0 := by tauto
  have e1 : win0_1.index t (1 : Fin 2) = 0 := by tauto
  funext j
  show V m c main_v0 (((cfg0.win 1).blk t).view.emb j) = _
  have hj : ((cfg0.win 1).blk t).view.emb j = j := funext fun a => Fin.ext (by
    match a with
    | ⟨0, _⟩ => show win0_1.index t (0 : Fin 2) * 512 + 1 * (j 0).val = (j 0).val; omega
    | ⟨1, _⟩ => show win0_1.index t (1 : Fin 2) * 2048 + 1 * (j 1).val = (j 1).val; omega)
  rw [hj]

/-- Window 2 stages its whole array at every point. -/
theorem blk_2 (c : Dev nD) (t : Fin cfg0.N) : (iblk m c 2 t : S1x2048.Idx → EReal) = V m c main_v1 := by
  have hf := idx_facts t
  have e0 : win0_2.index t (0 : Fin 2) = 0 := by tauto
  have e1 : win0_2.index t (1 : Fin 2) = 0 := by tauto
  funext j
  show V m c main_v1 (((cfg0.win 2).blk t).view.emb j) = _
  have hj : ((cfg0.win 2).blk t).view.emb j = j := funext fun a => Fin.ext (by
    match a with
    | ⟨0, _⟩ => show win0_2.index t (0 : Fin 2) * 1 + 1 * (j 0).val = (j 0).val; omega
    | ⟨1, _⟩ => show win0_2.index t (1 : Fin 2) * 2048 + 1 * (j 1).val = (j 1).val; omega)
  rw [hj]

/-- Window 3 stages its whole array at every point. -/
theorem blk_3 (c : Dev nD) (t : Fin cfg0.N) : (iblk m c 3 t : S2048x768.Idx → EReal) = V m c main_v10 := by
  have hf := idx_facts t
  have e0 : win0_3.index t (0 : Fin 2) = 0 := by tauto
  have e1 : win0_3.index t (1 : Fin 2) = 0 := by tauto
  funext j
  show V m c main_v10 (((cfg0.win 3).blk t).view.emb j) = _
  have hj : ((cfg0.win 3).blk t).view.emb j = j := funext fun a => Fin.ext (by
    match a with
    | ⟨0, _⟩ => show win0_3.index t (0 : Fin 2) * 2048 + 1 * (j 0).val = (j 0).val; omega
    | ⟨1, _⟩ => show win0_3.index t (1 : Fin 2) * 768 + 1 * (j 1).val = (j 1).val; omega)
  rw [hj]

/-- Window 4 stages its whole array at every point. -/
theorem blk_4 (c : Dev nD) (t : Fin cfg0.N) : (iblk m c 4 t : S1x768.Idx → EReal) = V m c main_v11 := by
  have hf := idx_facts t
  have e0 : win0_4.index t (0 : Fin 2) = 0 := by tauto
  have e1 : win0_4.index t (1 : Fin 2) = 0 := by tauto
  funext j
  show V m c main_v11 (((cfg0.win 4).blk t).view.emb j) = _
  have hj : ((cfg0.win 4).blk t).view.emb j = j := funext fun a => Fin.ext (by
    match a with
    | ⟨0, _⟩ => show win0_4.index t (0 : Fin 2) * 1 + 1 * (j 0).val = (j 0).val; omega
    | ⟨1, _⟩ => show win0_4.index t (1 : Fin 2) * 768 + 1 * (j 1).val = (j 1).val; omega)
  rw [hj]

/-- Window 5 stages its whole array at every point. -/
theorem blk_5 (c : Dev nD) (t : Fin cfg0.N) : (iblk m c 5 t : S768x512.Idx → EReal) = V m c main_v26 := by
  have hf := idx_facts t
  have e0 : win0_5.index t (0 : Fin 2) = 0 := by tauto
  have e1 : win0_5.index t (1 : Fin 2) = 0 := by tauto
  funext j
  show V m c main_v26 (((cfg0.win 5).blk t).view.emb j) = _
  have hj : ((cfg0.win 5).blk t).view.emb j = j := funext fun a => Fin.ext (by
    match a with
    | ⟨0, _⟩ => show win0_5.index t (0 : Fin 2) * 768 + 1 * (j 0).val = (j 0).val; omega
    | ⟨1, _⟩ => show win0_5.index t (1 : Fin 2) * 512 + 1 * (j 1).val = (j 1).val; omega)
  rw [hj]

/-- Window 6 stages its whole array at every point. -/
theorem blk_6 (c : Dev nD) (t : Fin cfg0.N) : (iblk m c 6 t : S1x512.Idx → EReal) = V m c main_v28 := by
  have hf := idx_facts t
  have e0 : win0_6.index t (0 : Fin 2) = 0 := by tauto
  have e1 : win0_6.index t (1 : Fin 2) = 0 := by tauto
  funext j
  show V m c main_v28 (((cfg0.win 6).blk t).view.emb j) = _
  have hj : ((cfg0.win 6).blk t).view.emb j = j := funext fun a => Fin.ext (by
    match a with
    | ⟨0, _⟩ => show win0_6.index t (0 : Fin 2) * 1 + 1 * (j 0).val = (j 0).val; omega
    | ⟨1, _⟩ => show win0_6.index t (1 : Fin 2) * 512 + 1 * (j 1).val = (j 1).val; omega)
  rw [hj]

/-! ## What a point writes back -/

/-- Entry (r, j) of block t of the result sits in row 512 t + r of the array. -/
theorem emb7 (t : Fin cfg0.N) (r j : Fin 512) :
    ((cfg0.win 7).blk t).view.emb (ix2 r j) = (ix2 ⟨t.val * 512 + r.val, row_lt t r⟩ j : S16384x512.Idx) := by
  obtain ⟨-, -, e0, e1, -⟩ := idx_facts t
  refine funext fun a => Fin.ext ?_
  match a with
  | ⟨0, _⟩ => show win0_7.index t (0 : Fin 2) * 512 + 1 * r.val = t.val * 512 + r.val; omega
  | ⟨1, _⟩ => show win0_7.index t (1 : Fin 2) * 512 + 1 * j.val = j.val; omega

/-- Point t writes back block t of the fused whole-array function. -/
theorem flushed7_eq (c : Dev nD) (t : Fin cfg0.N) :
    (dats m 0 c).flushed 7 t = ((cfg0.win 7).blk t).view.read (Elt Ideal) (fusedArr m c) := by
  show (cfg0.win 7).cut (grid0.coords t) ((dats m 0 c).after 7 t) = _
  rw [after0_7]
  unfold out0_7
  rw [View.canon_unit_zero hz]
  simp only [View.ld_unit_zero (S := S512x512) hz, View.ld_unit_zero (S := S512x2048) hz, View.ld_unit_zero (S := S1x2048) hz,
    View.ld_unit_zero (S := S2048x768) hz, View.ld_unit_zero (S := S1x768) hz, View.ld_unit_zero (S := S768x512) hz,
    View.ld_unit_zero (S := S1x512) hz]
  funext y
  obtain ⟨r, j, rfl⟩ : ∃ (r : Fin 512) (j : Fin 512), y = ix2 r j := ⟨y 0, y 1, eq_ix2 y⟩
  show k0_pay1 (F := Ideal) (k0_pay2 (F := Ideal) (iblk m c 0 t) (iblk m c 1 t) (iblk m c 2 t) (iblk m c 3 t) (iblk m c 4 t) (iblk m c 5 t)) (iblk m c 6 t) (ix2 r j)
      = fusedArr m c (((cfg0.win 7).blk t).view.emb (ix2 r j))
  rw [emb7 t r j]
  refine (Payload.pay_apply (iblk m c 0 t) (iblk m c 1 t) (iblk m c 2 t) (iblk m c 3 t) (iblk m c 4 t) (iblk m c 5 t) (iblk m c 6 t) (ix2 r j)).trans ?_
  rw [blk_1 m c t, blk_2 m c t, blk_3 m c t, blk_4 m c t, blk_5 m c t, blk_6 m c t]
  show fusedRow _ _ _ _ _ _ (fun p : Fin 512 => iblk m c 0 t (ix2 r p)) j = _
  simp only [blk_x m c t r]
  rfl

/-! ## The blocks tile the rows -/

theorem mem_blk7 (t : Fin cfg0.N) (i : S16384x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v29).slice (win0_7.rect t)).set ↔ _
  rw [View.set_slice_whole, Rect.mem_set_unit]
  exact Iff.rfl

/-- Every row of the result is in the block of the point its row number divided by 512 names. -/
theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 32 := N_0
  let t : Fin cfg0.N := ⟨(i 0).val / 512, by omega⟩
  obtain ⟨-, -, e0, e1, -⟩ := idx_facts t
  have ht : t.val = (i 0).val / 512 := rfl
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 512 ≤ (i 1).val ∧ (i 1).val < win0_7.index t (1 : Fin 2) * 512 + 512; omega

/-- The fused result array after the run. -/
theorem final7 (c : Dev nD) : (dats m 0 c).arrAt 7 cfg0.N = fusedArr m c :=
  (dats m 0 c).arrAt_eq_of_cover 7 (fusedArr m c) (fun t _ => flushed7_eq m c t) cover7

end Cert.ReferenceIdeal.RunValue

end
-- ==== Proof.RefTail.lean ====
/-
  The fused program's run, read: the two results it returns, cut out of the fused kernel's result array.

  After the launch the program slices the [16384, 512] array into its first 256 and its last 256 columns. Entry
  (r, j) of the first slice is the fused row of input row r at j, which the packing makes the first branch's output
  row at j; entry (r, j) of the second slice is the fused row at j + 256, the second branch's output row at j. The
  argument arrays are not written by anything.
-/
import proofs.«108907_g2000702497057735_pallasbulk_324_2_alg».proof.Proof.RefValue

noncomputable section

namespace Cert.ReferenceIdeal.RunValue

open Cert.ReferenceIdeal Cert.ReferenceIdeal.Gen Idealize.ShloMosaic Idealize.ShloMosaic.TcCoe Idealize.SL.Sem
open Idealize.ShloMosaic.ValueIdx Idealize.ShloMosaic.StableHlo Cert.Spec Cert.Fused
open Idealize.ShloMosaic.Pipeline (Dat)

variable (m : (ℓ : Loc nD τ sig) → Buf (Elt Ideal) ℓ) (ρ : Dev nD → PrngReg)

/-- The first 256 columns of the fused result are the first branch's output rows. -/
theorem slice_mu (c : Dev nD) :
    extractStridedSlice S16384x256 ![0, 0] (fusedArr m c) slices_S16384x512_S16384x256_0_0 = muArr m c := by
  funext i
  obtain ⟨r, j, rfl⟩ : ∃ (r : Fin 16384) (j : Fin 256), i = ix2 r j := ⟨i 0, i 1, eq_ix2 i⟩
  refine (extractStridedSlice_apply _ _ _ _ (ix2 r ⟨j.val, by omega⟩) (fun a => ?_)).trans ?_
  · match a with
    | ⟨0, _⟩ => show r.val = 0 + r.val; omega
    | ⟨1, _⟩ => show j.val = 0 + j.val; omega
  · exact fusedRow_left (HostValue.packed m c) _ j

/-- The last 256 columns of the fused result are the second branch's output rows. -/
theorem slice_tau (c : Dev nD) :
    extractStridedSlice S16384x256 ![0, 256] (fusedArr m c) slices_S16384x512_S16384x256_0_256 = tauArr m c := by
  funext i
  obtain ⟨r, j, rfl⟩ : ∃ (r : Fin 16384) (j : Fin 256), i = ix2 r j := ⟨i 0, i 1, eq_ix2 i⟩
  refine (extractStridedSlice_apply _ _ _ _ (ix2 r ⟨j.val + 256, by omega⟩) (fun a => ?_)).trans ?_
  · match a with
    | ⟨0, _⟩ => show r.val = 0 + r.val; omega
    | ⟨1, _⟩ => show j.val + 256 = 256 + j.val; omega
  · exact fusedRow_right (HostValue.packed m c) _ j

/-- What the lines after the launch leave in the first result's buffer. -/
theorem tail30 (c : Dev nD) :
    Pipeline.afterTail₀ cfgs (dats m) 0 (V0 m) [hostOps1] c main_v30 = muArr m c := by
  unfold Pipeline.afterTail₀
  show StableHlo.after hostOps1 _ (Proc.devRef .tc main_v30) = _
  after_results
  rw [Pipeline.withArrays_arr spec0 launch0.win.arr_inj c _ _ 7, final7]
  exact slice_mu m c

/-- What the lines after the launch leave in the second result's buffer. -/
theorem tail31 (c : Dev nD) :
    Pipeline.afterTail₀ cfgs (dats m) 0 (V0 m) [hostOps1] c main_v31 = tauArr m c := by
  unfold Pipeline.afterTail₀
  show StableHlo.after hostOps1 _ (Proc.devRef .tc main_v31) = _
  after_results
  rw [Pipeline.withArrays_arr spec0 launch0.win.arr_inj c _ _ 7, final7]
  exact slice_tau m c

/-- Every weakly fair execution ends with each result at its whole-array function of the arguments, the arguments
    unchanged. -/
theorem run : θ_run defs (onTc (τ := τ) (main (F := Ideal))) ⟨m, fun _ => 0, ρ⟩ fun r => ∀ c : Dev nD,
      r.2.mem ((c : Thread nD τ).loc main_v30) = muArr m c
      ∧ r.2.mem ((c : Thread nD τ).loc main_v31) = tauArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨
      ((h c).2 main_v30 (Pipeline.mem_restRefs_of main_v30 (by decide) (by decide))).trans (tail30 m c),
      ((h c).2 main_v31 (Pipeline.mem_restRefs_of main_v31 (by decide) (by decide))).trans (tail31 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.ReferenceIdeal.RunValue

end
-- ==== Proof.lean ====
/-
  Two programs compute a pair of multilayer perceptrons on the rows of one input matrix: the kernel runs the two
  branches with separate matrix products and returns their outputs as two arrays; the reference packs both
  branches' weights into block-diagonal matrices, runs ONE wider network in a kernel of its own, and slices the two
  outputs out of the result. On the extended reals the two agree entry by entry: a sum over a packed axis is the sum
  over its two parts, a zero block contributes nothing, and the identity block passes the second branch through.
  All three frames are the generated ones; nothing was rewritten between the kernel and its idealization.
-/
import proofs.«108907_g2000702497057735_pallasbulk_324_2_alg».proof.Defs
import proofs.«108907_g2000702497057735_pallasbulk_324_2_alg».proof.Proof.Gen.Kernel
import proofs.«108907_g2000702497057735_pallasbulk_324_2_alg».proof.Proof.Gen.Kernel.Frame
import proofs.«108907_g2000702497057735_pallasbulk_324_2_alg».proof.Proof.Gen.KernelIdeal
import proofs.«108907_g2000702497057735_pallasbulk_324_2_alg».proof.Proof.Gen.KernelIdeal.Frame
import proofs.«108907_g2000702497057735_pallasbulk_324_2_alg».proof.Proof.Gen.ReferenceIdeal
import proofs.«108907_g2000702497057735_pallasbulk_324_2_alg».proof.Proof.Gen.ReferenceIdeal.Frame
import proofs.«108907_g2000702497057735_pallasbulk_324_2_alg».proof.Proof.Gen.Pre_finite_inputs
import proofs.«108907_g2000702497057735_pallasbulk_324_2_alg».proof.Proof.KernelValue
import proofs.«108907_g2000702497057735_pallasbulk_324_2_alg».proof.Proof.RefTail
import Idealize.ShloMosaic.Adequacy
import Idealize.ShloMosaic.Init

noncomputable section

namespace Cert.Proof

open Idealize.ShloMosaic Idealize.ShloMosaic.TcCoe Idealize.SL.Sem

/-- The two idealized programs, run from memories that agree on the arguments, end with equal results: each result is
    the same whole-array function of the arguments on both sides. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨fun c => Cert.KernelIdeal.RunValue.muArr m c, fun c => Cert.KernelIdeal.RunValue.tauArr m c,
    Cert.KernelIdeal.RunValue.run m ρ, ?_⟩
  refine (θ_run Cert.ReferenceIdeal.defs _ _).mono (fun r h c => ⟨(h c).1.trans ?_, (h c).2.1.trans ?_, (h c).2.2⟩)
    (Cert.ReferenceIdeal.RunValue.run m' ρ')
  · obtain ⟨h0, h1, h2, h3, h4, h5, h6, h7, h8, h9, h10⟩ := hagree c
    unfold Cert.ReferenceIdeal.RunValue.muArr Cert.KernelIdeal.RunValue.muArr
    dsimp only [Cert.ReferenceIdeal.RunValue.arg, Cert.KernelIdeal.RunValue.arg]
    rw [h0, h1, h2, h3, h4, h5, h6]
  · obtain ⟨h0, h1, h2, h3, h4, h5, h6, h7, h8, h9, h10⟩ := hagree c
    unfold Cert.ReferenceIdeal.RunValue.tauArr Cert.KernelIdeal.RunValue.tauArr
    dsimp only [Cert.ReferenceIdeal.RunValue.arg, Cert.KernelIdeal.RunValue.arg]
    rw [h0, h7, h8, h9, h10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
